-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1x2048x1024 : Shape := ⟨3, ![1, 2048, 1024]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S16x2048x1024 .f32) (main_arg1 : FVec F S1x2048x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S16x2048x1024 : Shape := ⟨3, ![16, 2048, 1024]⟩
abbrev S1x2048x1024 : Shape := ⟨3, ![1, 2048, 1024]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S512x2048 : Shape := ⟨2, ![512, 2048]⟩

abbrev nBuf : Space → Nat
  | .hbm => 9
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1024x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x2048x1024, .f32⟩
  | .local _ .vmem, ⟨11, _⟩ => ⟨S1x2048x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1024x1024, .f32⟩
  | .local _ .vmem, ⟨17, _⟩ => ⟨S1024x1024, .f32⟩
  | .local _ .vmem, ⟨18, _⟩ => ⟨S1x512x1024, .f32⟩
  | .local _ .vmem, ⟨19, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S1x2048x1024.size a
  hwx0_1 : ∀ i : grid0.Coords, EltTy.bits .f32 = 32 ∨ (Rect.block (s := S1x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x2048x1024.size a
  hwx0_4 : ∀ i : grid0.Coords, EltTy.bits .f32 = 32 ∨ (Rect.block (s := S16x2048x1024) S1x512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .f32 = 32 ∨ (Rect.block (s := S16x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .f32 = 32 ∨ (Rect.block (s := S16x2048x1024) S1x2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S16x2048x1024.size a
  hwx1_2 : ∀ i : grid1.Coords, EltTy.bits .f32 = 32 ∨ (Rect.block (s := S16x2048x1024) S1x512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S16x2048x1024.size a
  hwx2_0 : ∀ i : grid2.Coords, EltTy.bits .f32 = 32 ∨ (Rect.block (s := S16x2048x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .f32 = 32 ∨ (Rect.block (s := S1024x1024) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S16x2048x1024.size a
  hwx2_3 : ∀ i : grid2.Coords, EltTy.bits .f32 = 32 ∨ (Rect.block (s := S16x2048x1024) S1x512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x2048x1024 : Shape := ⟨3, ![16, 2048, 1024]⟩
abbrev S1x2048x1024 : Shape := ⟨3, ![1, 2048, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S16x2048x2048, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_call2_v0 : Ref sig .tc := ⟨.hbm, 16, rfl⟩
abbrev main_call2_cst : Ref sig .tc := ⟨.hbm, 17, rfl⟩
abbrev main_call2_v1 : Ref sig .tc := ⟨.hbm, 18, rfl⟩
abbrev main_call2_v2 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call3_cst : Ref sig .tc := ⟨.hbm, 29, rfl⟩
abbrev main_call3_v0 : Ref sig .tc := ⟨.hbm, 30, rfl⟩
abbrev main_v14 : Ref sig .tc := ⟨.hbm, 31, rfl⟩
abbrev main_v15 : Ref sig .tc := ⟨.hbm, 32, rfl⟩
abbrev main_call4_cst : Ref sig .tc := ⟨.hbm, 33, rfl⟩
abbrev main_call4_v0 : Ref sig .tc := ⟨.hbm, 34, rfl⟩
abbrev main_v16 : Ref sig .tc := ⟨.hbm, 35, rfl⟩

abbrev nD : Nat := 1
abbrev τ : Topo := Topo.v7x

variable {F : FTy → Type} [FloatOps F]

class Facts₀ : Prop where
  bcast_S1x2048x1024_S16x2048x1024_0_1_2 : S1x2048x1024.BroadcastsInDim S16x2048x1024 (![0, 1, 2] : Fin 3 → Fin S16x2048x1024.rank)
  bcast_S_S16x2048x1024 : S_.BroadcastsInDim S16x2048x1024 (![] : Fin 0 → Fin S16x2048x1024.rank)
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.KernelEncoder.lean ====
/-
  The first region of the program: the encoder call, on a grid of 16 batch entries by 4 blocks of 512 rows.
  At a point the body reads a [1, 512, 1024] block of the input, the matching block of the position table and the
  two whole weight matrices, and stores one [1, 512, 1024] block of the result. This module says what each
  staging buffer holds when the body is called and what the body leaves in the result's buffer (one store, so the
  buffer is that store's value), proves the body's triple, and packs both into the pipeline's proof data, stated
  at any contents `V` of the arrays on entering the region and at any float instance.
-/
import proofs.«121055_j46617575031493_1_alg».proof.Proof.Gen.Kernel.Launch
import proofs.«121055_j46617575031493_1_alg».proof.Proof.Gen.Kernel.Skeleton
import proofs.«121055_j46617575031493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window that is not
    fetched at a point kept its block index from the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result's buffer -/

abbrev rBlk0 : Rect S1x512x1024 := Rect.unit (s := S1x512x1024) ![0, 0, 0] S1x512x1024.size inb_S1x512x1024_S1x512x1024_0_0_0
abbrev rMat0 : Rect S1024x1024 := Rect.unit (s := S1024x1024) ![0, 0] S1024x1024.size inb_S1024x1024_S1024x1024_0_0

/-- The result window's buffer after the body: its one store, over the whole buffer, of the body's value of the
    four loaded blocks. -/
def out0_4 (x0 x1 : Vec F S1x512x1024 .f32) (x2 x3 : Vec F S1024x1024 .f32) : Vec F S1x512x1024 .f32 :=
  View.canon [⟨rBlk0, k0_pay1 (View.ld x0 rBlk0) (View.ld x1 rBlk0) (View.ld x2 rMat0) (View.ld x3 rMat0)⟩]

/-- The store covers the buffer. -/
theorem cover0_4 (p0 : Vec F S1x512x1024 .f32) (y : S1x512x1024.Idx) :
    ∃ pc ∈ ([⟨rBlk0, p0⟩] : List (View.Piece (Elt F) S1x512x1024 .f32)), y ∈ pc.1.set :=
  View.cover_of_tiled [⟨rBlk0, p0⟩] S1x512x1024.size (by rfl) y

/-! ## The body's triple -/

set_option maxHeartbeats 1000000 in
/-- On whole staging buffers, the inputs' at contents `x0 … x3` and the result's at anything, the body runs to the
    continuation holding the inputs' as they were and the result's at `out0_4` of them. -/
theorem sound_kernel0 (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x512x1024 .f32) (harg6 : arg6.IsWhole)
    (x0 x1 : Vec F S1x512x1024 .f32) (x2 x3 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__enc_kernel i arg2 harg2 arg3 harg3 arg4 harg4 arg5 harg5 arg6 harg6) K := by
  simp only [cc0__enc_kernel_eq_skeleton]; unfold cc0__enc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the encoder's pipeline on core `c`: the arrays as the region finds them; after the body at
    point `t` each input's buffer at its block and the result's at `out0_4` of the input blocks; the invariant
    is the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelAttention.lean ====
/-
  The second region of the program: the attention call, on a grid of 16 batch entries by 4 blocks of 512 query
  rows. At a point the body reads a [1, 512, 1024] block of the encoder's result (the queries) and the batch entry's
  whole [1, 2048, 1024] slab of the same array (the keys, which are also the values), and stores one
  [1, 512, 1024] block of the result. Both input windows read ONE array, so the core holds that array once and
  the two windows hold it at the two halves of the full share. This module says what each staging buffer holds
  when the body is called and what the body leaves in the result's buffer, proves the body's triple, and packs both
  into the pipeline's proof data, at any contents `V` of the arrays on entering the region and at any float instance.
-/
import proofs.«121055_j46617575031493_1_alg».proof.Proof.Gen.Kernel.Launch
import proofs.«121055_j46617575031493_1_alg».proof.Proof.Gen.Kernel.Skeleton
import proofs.«121055_j46617575031493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (the key slab is fetched
    once per batch entry and keeps its block index through the entry's four points). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the result's buffer -/

abbrev rBlk1 : Rect S1x512x1024 := Rect.unit (s := S1x512x1024) ![0, 0, 0] S1x512x1024.size inb_S1x512x1024_S1x512x1024_0_0_0
abbrev rSlab1 : Rect S1x2048x1024 := Rect.unit (s := S1x2048x1024) ![0, 0, 0] S1x2048x1024.size inb_S1x2048x1024_S1x2048x1024_0_0_0

/-- The result window's buffer after the body: its one store, over the whole buffer, of the body's value of the
    query block and the key slab. -/
def out1_2 (x0 : Vec F S1x512x1024 .f32) (x1 : Vec F S1x2048x1024 .f32) : Vec F S1x512x1024 .f32 :=
  View.canon [⟨rBlk1, k1_pay1 (View.ld x0 rBlk1) (View.ld x1 rSlab1)⟩]

/-- The store covers the buffer. -/
theorem cover1_2 (p0 : Vec F S1x512x1024 .f32) (y : S1x512x1024.Idx) :
    ∃ pc ∈ ([⟨rBlk1, p0⟩] : List (View.Piece (Elt F) S1x512x1024 .f32)), y ∈ pc.1.set :=
  View.cover_of_tiled [⟨rBlk1, p0⟩] S1x512x1024.size (by rfl) y

/-! ## The body's triple -/

set_option maxHeartbeats 1000000 in
/-- On whole staging buffers, the inputs' at contents `x0`, `x1` and the result's at anything, the body runs to the
    continuation holding the inputs' as they were and the result's at `out1_2` of them. -/
theorem sound_kernel1 (c : Dev nD) (E : Set ℕ) (i : grid1.Coords) (arg2 : Memref sig .tc .vmem S1x512x1024 .f32) (harg2 : arg2.IsWhole) (arg3 : Memref sig .tc .vmem S1x2048x1024 .f32) (harg3 : arg3.IsWhole) (arg4 : Memref sig .tc .vmem S1x512x1024 .f32) (harg4 : arg4.IsWhole)
    (x0 : Vec F S1x512x1024 .f32) (x1 : Vec F S1x2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the attention pipeline on core `c`: the arrays as the region finds them; after the body at
    point `t` each input's buffer at its block and the result's at `out1_2` of the input blocks; the invariant is
    the scoped buffers no window stages and the generator register, untouched; nothing owed. The two input windows
    read one array: each holds it at one half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- The shares the core holds the three windows' arrays at. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelDecoder.lean ====
/-
  The third region of the program: the decoder call, on a grid of 16 batch entries by 4 blocks of 512 rows.
  At a point the body reads a [1, 512, 1024] block of the attention's result and the two whole weight matrices,
  and stores one [1, 512, 1024] block of the program's result. This module says what each staging buffer holds
  when the body is called and what the body leaves in the result's buffer, proves the body's triple, and packs both
  into the pipeline's proof data, at any contents `V` of the arrays on entering the region and at any float instance.
-/
import proofs.«121055_j46617575031493_1_alg».proof.Proof.Gen.Kernel.Launch
import proofs.«121055_j46617575031493_1_alg».proof.Proof.Gen.Kernel.Skeleton
import proofs.«121055_j46617575031493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (the weight matrices are
    fetched once and keep their block index). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the result's buffer -/

abbrev rBlk2 : Rect S1x512x1024 := Rect.unit (s := S1x512x1024) ![0, 0, 0] S1x512x1024.size inb_S1x512x1024_S1x512x1024_0_0_0
abbrev rMat2 : Rect S1024x1024 := Rect.unit (s := S1024x1024) ![0, 0] S1024x1024.size inb_S1024x1024_S1024x1024_0_0

/-- The result window's buffer after the body: its one store, over the whole buffer, of the body's value of the
    three loaded blocks. -/
def out2_3 (x0 : Vec F S1x512x1024 .f32) (x1 x2 : Vec F S1024x1024 .f32) : Vec F S1x512x1024 .f32 :=
  View.canon [⟨rBlk2, k2_pay1 (View.ld x0 rBlk2) (View.ld x1 rMat2) (View.ld x2 rMat2)⟩]

/-- The store covers the buffer. -/
theorem cover2_3 (p0 : Vec F S1x512x1024 .f32) (y : S1x512x1024.Idx) :
    ∃ pc ∈ ([⟨rBlk2, p0⟩] : List (View.Piece (Elt F) S1x512x1024 .f32)), y ∈ pc.1.set :=
  View.cover_of_tiled [⟨rBlk2, p0⟩] S1x512x1024.size (by rfl) y

/-! ## The body's triple -/

set_option maxHeartbeats 1000000 in
/-- On whole staging buffers, the inputs' at contents `x0`, `x1`, `x2` and the result's at anything, the body runs
    to the continuation holding the inputs' as they were and the result's at `out2_3` of them. -/
theorem sound_kernel2 (c : Dev nD) (E : Set ℕ) (i : grid2.Coords) (arg2 : Memref sig .tc .vmem S1x512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x512x1024 .f32) (harg5 : arg5.IsWhole)
    (x0 : Vec F S1x512x1024 .f32) (x1 x2 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__dec_kernel i arg2 harg2 arg3 harg3 arg4 harg4 arg5 harg5) K := by
  simp only [cc2__dec_kernel_eq_skeleton]; unfold cc2__dec_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the decoder's pipeline on core `c`: the arrays as the region finds them; after the body at
    point `t` each input's buffer at its block and the result's at `out2_3` of the input blocks; the invariant
    is the scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KernelRun.lean ====
/-
  The program's run: three kernel regions one after the other, each entered with every unscoped buffer of the core
  whole at the contents the region before it left. The contents at the three boundaries are the launch memory with
  the encoder's, then the attention's, then the decoder's result array replaced by what that region's write-backs
  leave. The conclusion names the program's result array after the run and says every argument array is unchanged,
  at any float instance.
-/
import proofs.«121055_j46617575031493_1_alg».proof.Proof.KernelEncoder
import proofs.«121055_j46617575031493_1_alg».proof.Proof.KernelAttention
import proofs.«121055_j46617575031493_1_alg».proof.Proof.KernelDecoder

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the encoder region: its result array at what its write-backs leave. -/
def W1 (c : Dev nD) : Valuation τ sig (Elt F) :=
  Function.update (W0 m c) main_v0 ((dat0 (V0 m) c).arrAt 4 cfg0.N)
abbrev V1 : (c : Dev nD) → (b : Ref sig .tc) → Buf (Elt F) ((c : Thread nD τ).loc b) := fun c b => W1 m c b
/-- After the attention region: its result array at what its write-backs leave. -/
def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b
/-- After the decoder region: the program's result array at what its write-backs leave. -/
def W3 (c : Dev nD) : Valuation τ sig (Elt F) :=
  Function.update (W2 m c) main_v2 ((dat2 (V2 m) c).arrAt 3 cfg2.N)
abbrev V3 : (c : Dev nD) → (b : Ref sig .tc) → Buf (Elt F) ((c : Thread nD τ).loc b) := fun c b => W3 m c b

theorem W1_out (c : Dev nD) : W1 m c (Proc.devRef .tc main_v0) = (dat0 (V0 m) c).arrAt 4 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb : (Proc.devRef .tc b : DevRef τ sig) ≠ Proc.devRef .tc main_v0) ..
theorem W2_out (c : Dev nD) : W2 m c (Proc.devRef .tc main_v1) = (dat1 (V1 m) c).arrAt 2 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb : (Proc.devRef .tc b : DevRef τ sig) ≠ Proc.devRef .tc main_v1) ..
theorem W3_out (c : Dev nD) : W3 m c (Proc.devRef .tc main_v2) = (dat2 (V2 m) c).arrAt 3 cfg2.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb : (Proc.devRef .tc b : DevRef τ sig) ≠ Proc.devRef .tc main_v2) ..

/-! ## What each region leaves: its arrays at the exit contents, every other buffer as entered -/

theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans ((A_eq0 (V0 m) c 0).trans (W1_of_ne m c main_arg0 (by decide)).symm)
  | ⟨1, _⟩ => ((dat0 (V0 m) c).arrAt_in 1 rfl _).trans ((A_eq0 (V0 m) c 1).trans (W1_of_ne m c main_arg1 (by decide)).symm)
  | ⟨2, _⟩ => ((dat0 (V0 m) c).arrAt_in 2 rfl _).trans ((A_eq0 (V0 m) c 2).trans (W1_of_ne m c main_arg2 (by decide)).symm)
  | ⟨3, _⟩ => ((dat0 (V0 m) c).arrAt_in 3 rfl _).trans ((A_eq0 (V0 m) c 3).trans (W1_of_ne m c main_arg3 (by decide)).symm)
  | ⟨4, _⟩ => (W1_out m c).symm
theorem hrest0 (c : Dev nD) : ∀ b, b ∉ Finset.univ.image (Pipeline.arrRef spec0) → V1 m c b = V0 m c b :=
  fun b hb => W1_of_ne m c b fun e => hb (e ▸ Finset.mem_image.mpr ⟨4, Finset.mem_univ _, rfl⟩)

theorem hF1 (c : Dev nD) (w : Fin cfg1.W) : (dat1 (V1 m) c).arrAt w cfg1.N = V2 m c (Pipeline.arrRef spec1 w) :=
  match w with
  | ⟨0, _⟩ => ((dat1 (V1 m) c).arrAt_in 0 rfl _).trans ((A_eq1 (V1 m) c 0).trans (W2_of_ne m c main_v0 (by decide)).symm)
  | ⟨1, _⟩ => ((dat1 (V1 m) c).arrAt_in 1 rfl _).trans ((A_eq1 (V1 m) c 1).trans (W2_of_ne m c main_v0 (by decide)).symm)
  | ⟨2, _⟩ => (W2_out m c).symm
theorem hrest1 (c : Dev nD) : ∀ b, b ∉ Finset.univ.image (Pipeline.arrRef spec1) → V2 m c b = V1 m c b :=
  fun b hb => W2_of_ne m c b fun e => hb (e ▸ Finset.mem_image.mpr ⟨2, Finset.mem_univ _, rfl⟩)

theorem hF2 (c : Dev nD) (w : Fin cfg2.W) : (dat2 (V2 m) c).arrAt w cfg2.N = V3 m c (Pipeline.arrRef spec2 w) :=
  match w with
  | ⟨0, _⟩ => ((dat2 (V2 m) c).arrAt_in 0 rfl _).trans ((A_eq2 (V2 m) c 0).trans (W3_of_ne m c main_v1 (by decide)).symm)
  | ⟨1, _⟩ => ((dat2 (V2 m) c).arrAt_in 1 rfl _).trans ((A_eq2 (V2 m) c 1).trans (W3_of_ne m c main_arg4 (by decide)).symm)
  | ⟨2, _⟩ => ((dat2 (V2 m) c).arrAt_in 2 rfl _).trans ((A_eq2 (V2 m) c 2).trans (W3_of_ne m c main_arg5 (by decide)).symm)
  | ⟨3, _⟩ => (W3_out m c).symm
theorem hrest2 (c : Dev nD) : ∀ b, b ∉ Finset.univ.image (Pipeline.arrRef spec2) → V3 m c b = V2 m c b :=
  fun b hb => W3_of_ne m c b fun e => hb (e ▸ Finset.mem_image.mpr ⟨3, Finset.mem_univ _, rfl⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and what it
    owes, which is nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The encoder region over the thread state: entered from every unscoped buffer at the launch contents, left at
    the contents with its result array replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: one array behind two windows -/

/-- The attention pipeline's arrays, window by window: the shared array at the two halves of the full share, the
    result array whole. -/
theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    ((dat1 V c).arrays Fw : sProp 𝕄) = iprop(
      (((c : Thread nD τ).loc (Pipeline.arrRef spec1 0)) ↦{fullShare.left} Fw 0)
      ∗ (((c : Thread nD τ).loc (Pipeline.arrRef spec1 1)) ↦{fullShare.right} Fw 1)
      ∗ (((c : Thread nD τ).loc (Pipeline.arrRef spec1 2)) ↦{fullShare} Fw 2)) := by
  have h : ((dat1 V c).arrays Fw : sProp 𝕄)
      = bigSep Finset.univ fun w : Fin cfg1.W => (((c : Thread nD τ).loc (Pipeline.arrRef spec1 w)) ↦{(dat1 V c).share w} Fw w : sProp 𝕄) := by
    unfold Dat.arrays
    exact bigSep_congr fun w _ => by rw [(arr_whole1 w).set_eq_univ]
  rw [h, bigSep_W1, share1_0, share1_1, share1_2]

/-- The two distinct buffers behind the attention pipeline's three windows, each whole. -/
theorem arrBufs1_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v0) ↦{fullShare} G main_v0) ∗ (((c : Thread nD τ).loc main_v1) ↦{fullShare} G main_v1)) := by
  unfold Pipeline.arrBufs
  exact bigSep_eq_bigSepL_of_eq [main_v0, main_v1] (by decide) (by decide) _

/-- Whole, the two buffers are the pipeline's arrays at the contents read off the same valuation: the shared array's
    full share is dealt as its two halves to the two windows that read it. -/
theorem arrays1_of_arrBufs (V : (c : Dev nD) → (b : Ref sig .tc) → Buf (Elt F) ((c : Thread nD τ).loc b)) (c : Dev nD)
    (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    (Pipeline.arrBufs (Ix := Unit) (Name := ℕ) (U := UR sig nD τ) (Lvl := ℕ) spec1 c G : sProp 𝕄) ⊢ (dat1 V c).arrays Fw := by
  rw [arrays1_eq, arrBufs1_eq, hF 0, hF 1, hF 2]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- And back: the two halves of the shared array join to the full share. -/
theorem arrBufs_of_arrays1 (V : (c : Dev nD) → (b : Ref sig .tc) → Buf (Elt F) ((c : Thread nD τ).loc b)) (c : Dev nD)
    (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    ((dat1 V c).arrays Fw : sProp 𝕄) ⊢ Pipeline.arrBufs (Ix := Unit) (Name := ℕ) (U := UR sig nD τ) (Lvl := ℕ) spec1 c G := by
  rw [arrays1_eq, arrBufs1_eq, hF 0, hF 1, hF 2]
  iintro ⟨Hl, Hr, H1⟩
  isplitl [Hl Hr]
  · iapply (pointsTo_share (PosShare.mem_left_op_right fullShare)).2
    isplitl [Hl]; · iexact Hl
    iexact Hr
  iexact H1

set_option backward.isDefEq.respectTransparency.types false in
/-- The attention region over the thread state: entered from the contents the encoder region left, left at those
    with its result array replaced. Its two input windows read one array, so the arrays are sorted out of the
    unscoped buffers, and put back, through the two buffers behind them. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.unscopedBufs_split₀ (Ix := Unit) (Name := ℕ) (U := UR sig nD τ) (Lvl := ℕ) (Pipeline.pin (pcfgs (F := F)) adm) 1
      winFacts₀1.arr_unscoped c (V1 m c)
    rw [Pipeline.unscopedBufs_held] at hsplit
    have harr := arrays1_of_arrBufs (V1 m) c (V1 m c) ((pdats m 1 c).arrAt · 0) (fun _ => rfl)
    iintro ⟨⟨Hub, Hp, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Pipeline.pin (pcfgs (F := F)) adm) 1
      winFacts₀1.arr_unscoped c (V2 m c)
    rw [Pipeline.unscopedBufs_held] at hsplit
    have harr : ((pdats m 1 c).arrays (fun w => (pdats m 1 c).arrAt w (Pipeline.pin (pcfgs (F := F)) adm 1).N) : sProp 𝕄)
        ⊢ Pipeline.arrBufs (Ix := Unit) (Name := ℕ) (U := UR sig nD τ) (Lvl := ℕ) spec1 c (V2 m c) :=
      arrBufs_of_arrays1 (V1 m) c (V2 m c) ((pdats m 1 c).arrAt · cfg1.N) (hF1 m c)
    have hrest : (Pipeline.unscopedRest (Ix := Unit) (Name := ℕ) (U := UR sig nD τ) (Lvl := ℕ) spec1 c (V1 m c) : sProp 𝕄)
        = Pipeline.unscopedRest spec1 c (V2 m c) := by
      unfold Pipeline.unscopedRest
      exact bigSep_congr fun b hb => by rw [hrest1 m c b (Finset.mem_sdiff.mp hb).2]
    iintro ⟨Ha, HO, HY, Hrest⟩
    ihave Hb := harr $$ Ha
    ihave Hrest' := (Entails.of_eq hrest) $$ Hrest
    imodintro
    isplitl [Hb Hrest']
    · iapply (Entails.of_eq hsplit.symm); isplitl [Hb] <;> iassumption
    isplitl [HY]; · iexact HY
    unfold Pipeline.Dat.owesAt Pipeline.owesWithin
    icases HO with ⟨%W, -, HO⟩; iexists W; iexact HO

set_option backward.isDefEq.respectTransparency.types false in
/-- The decoder region over the thread state: entered from the contents the attention region left, left at those
    with the program's result array replaced, which is what the launch reads at the end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's three regions in order. -/
abbrev segs : List (Pipeline.Seg (pcfgs (F := F)) adm (pdats m) () defs₀ 𝒱₀ L lv) :=
  [ .region (reg0 m), .region (reg1 m), .region (reg2 m) ]
/-- The program is the run of the three regions. -/
theorem main_run (c : Dev nD) : main (F := F) c = Pipeline.Seg.run (segs m) := (main_chain c).trans (by chain_rfl)

/-- What the boundaries' contents hold at the arrays the regions read and at the arguments. -/
theorem W3_main_v2 (c : Dev nD) : W3 m c (Proc.devRef .tc main_v2) = (dat2 (V2 m) c).arrAt 3 cfg2.N := W3_out m c
theorem V2_main_v1 (c : Dev nD) : V2 m c main_v1 = (dat1 (V1 m) c).arrAt 2 cfg1.N := W2_out m c
theorem V1_main_v0 (c : Dev nD) : V1 m c main_v0 = (dat0 (V0 m) c).arrAt 4 cfg0.N := W1_out m c
theorem V2_main_arg4 (c : Dev nD) : V2 m c main_arg4 = m ((c : Thread nD τ).loc main_arg4) :=
  (W2_of_ne m c main_arg4 (by decide)).trans (W1_of_ne m c main_arg4 (by decide))
theorem V2_main_arg5 (c : Dev nD) : V2 m c main_arg5 = m ((c : Thread nD τ).loc main_arg5) :=
  (W2_of_ne m c main_arg5 (by decide)).trans (W1_of_ne m c main_arg5 (by decide))
/-- No region writes an argument. -/
theorem W3_arg (c : Dev nD) (b : Ref sig .tc) (h0 : b ≠ main_v0) (h1 : b ≠ main_v1) (h2 : b ≠ main_v2) :
    W3 m c (Proc.devRef .tc b) = m ((c : Thread nD τ).loc b) :=
  (W3_of_ne m c b h2).trans ((W2_of_ne m c b h1).trans (W1_of_ne m c b h0))

set_option backward.isDefEq.respectTransparency.types false in
/-- THE RUN, at any float instance: from any memory with zero counters every weakly fair execution of the program on
    the TensorCores terminates, nothing faulting; the result array ends at what the decoder region's write-backs leave
    over the contents the attention region left, and every argument array ends as launched. -/
theorem run : θ_run defs (onTc (τ := τ) (main (F := F))) ⟨m, fun _ => 0, ρ⟩ (fun r => ∀ c : Dev nD,
      r.2.mem ((c.tc : Thread nD τ).loc main_v2) = (dat2 (V2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide)),
       (h c _ (mem_uc main_arg5 (by decide))).trans (W3_arg m c main_arg5 (by decide) (by decide) (by decide))⟩)

end Cert.Kernel.Frame

end
-- ==== Proof.KernelIdealEncoder.lean ====
/-
  The first region of the program: the encoder call, on a grid of 16 batch entries by 4 blocks of 512 rows.
  At a point the body reads a [1, 512, 1024] block of the input, the matching block of the position table and the
  two whole weight matrices, and stores one [1, 512, 1024] block of the result. This module says what each
  staging buffer holds when the body is called and what the body leaves in the result's buffer (one store, so the
  buffer is that store's value), proves the body's triple, and packs both into the pipeline's proof data, stated
  at any contents `V` of the arrays on entering the region and at any float instance.
-/
import proofs.«121055_j46617575031493_1_alg».proof.Proof.Gen.KernelIdeal.Launch
import proofs.«121055_j46617575031493_1_alg».proof.Proof.Gen.KernelIdeal.Skeleton
import proofs.«121055_j46617575031493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window that is not
    fetched at a point kept its block index from the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result's buffer -/

abbrev rBlk0 : Rect S1x512x1024 := Rect.unit (s := S1x512x1024) ![0, 0, 0] S1x512x1024.size inb_S1x512x1024_S1x512x1024_0_0_0
abbrev rMat0 : Rect S1024x1024 := Rect.unit (s := S1024x1024) ![0, 0] S1024x1024.size inb_S1024x1024_S1024x1024_0_0

/-- The result window's buffer after the body: its one store, over the whole buffer, of the body's value of the
    four loaded blocks. -/
def out0_4 (x0 x1 : Vec F S1x512x1024 .f32) (x2 x3 : Vec F S1024x1024 .f32) : Vec F S1x512x1024 .f32 :=
  View.canon [⟨rBlk0, k0_pay1 (View.ld x0 rBlk0) (View.ld x1 rBlk0) (View.ld x2 rMat0) (View.ld x3 rMat0)⟩]

/-- The store covers the buffer. -/
theorem cover0_4 (p0 : Vec F S1x512x1024 .f32) (y : S1x512x1024.Idx) :
    ∃ pc ∈ ([⟨rBlk0, p0⟩] : List (View.Piece (Elt F) S1x512x1024 .f32)), y ∈ pc.1.set :=
  View.cover_of_tiled [⟨rBlk0, p0⟩] S1x512x1024.size (by rfl) y

/-! ## The body's triple -/

set_option maxHeartbeats 1000000 in
/-- On whole staging buffers, the inputs' at contents `x0 … x3` and the result's at anything, the body runs to the
    continuation holding the inputs' as they were and the result's at `out0_4` of them. -/
theorem sound_kernel0 (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x512x1024 .f32) (harg6 : arg6.IsWhole)
    (x0 x1 : Vec F S1x512x1024 .f32) (x2 x3 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__enc_kernel i arg2 harg2 arg3 harg3 arg4 harg4 arg5 harg5 arg6 harg6) K := by
  simp only [cc0__enc_kernel_eq_skeleton]; unfold cc0__enc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the encoder's pipeline on core `c`: the arrays as the region finds them; after the body at
    point `t` each input's buffer at its block and the result's at `out0_4` of the input blocks; the invariant
    is the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealAttention.lean ====
/-
  The second region of the program: the attention call, on a grid of 16 batch entries by 4 blocks of 512 query
  rows. At a point the body reads a [1, 512, 1024] block of the encoder's result (the queries) and the batch entry's
  whole [1, 2048, 1024] slab of the same array (the keys, which are also the values), and stores one
  [1, 512, 1024] block of the result. Both input windows read ONE array, so the core holds that array once and
  the two windows hold it at the two halves of the full share. This module says what each staging buffer holds
  when the body is called and what the body leaves in the result's buffer, proves the body's triple, and packs both
  into the pipeline's proof data, at any contents `V` of the arrays on entering the region and at any float instance.
-/
import proofs.«121055_j46617575031493_1_alg».proof.Proof.Gen.KernelIdeal.Launch
import proofs.«121055_j46617575031493_1_alg».proof.Proof.Gen.KernelIdeal.Skeleton
import proofs.«121055_j46617575031493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (the key slab is fetched
    once per batch entry and keeps its block index through the entry's four points). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the result's buffer -/

abbrev rBlk1 : Rect S1x512x1024 := Rect.unit (s := S1x512x1024) ![0, 0, 0] S1x512x1024.size inb_S1x512x1024_S1x512x1024_0_0_0
abbrev rSlab1 : Rect S1x2048x1024 := Rect.unit (s := S1x2048x1024) ![0, 0, 0] S1x2048x1024.size inb_S1x2048x1024_S1x2048x1024_0_0_0

/-- The result window's buffer after the body: its one store, over the whole buffer, of the body's value of the
    query block and the key slab. -/
def out1_2 (x0 : Vec F S1x512x1024 .f32) (x1 : Vec F S1x2048x1024 .f32) : Vec F S1x512x1024 .f32 :=
  View.canon [⟨rBlk1, k1_pay1 (View.ld x0 rBlk1) (View.ld x1 rSlab1)⟩]

/-- The store covers the buffer. -/
theorem cover1_2 (p0 : Vec F S1x512x1024 .f32) (y : S1x512x1024.Idx) :
    ∃ pc ∈ ([⟨rBlk1, p0⟩] : List (View.Piece (Elt F) S1x512x1024 .f32)), y ∈ pc.1.set :=
  View.cover_of_tiled [⟨rBlk1, p0⟩] S1x512x1024.size (by rfl) y

/-! ## The body's triple -/

set_option maxHeartbeats 1000000 in
/-- On whole staging buffers, the inputs' at contents `x0`, `x1` and the result's at anything, the body runs to the
    continuation holding the inputs' as they were and the result's at `out1_2` of them. -/
theorem sound_kernel1 (c : Dev nD) (E : Set ℕ) (i : grid1.Coords) (arg2 : Memref sig .tc .vmem S1x512x1024 .f32) (harg2 : arg2.IsWhole) (arg3 : Memref sig .tc .vmem S1x2048x1024 .f32) (harg3 : arg3.IsWhole) (arg4 : Memref sig .tc .vmem S1x512x1024 .f32) (harg4 : arg4.IsWhole)
    (x0 : Vec F S1x512x1024 .f32) (x1 : Vec F S1x2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the attention pipeline on core `c`: the arrays as the region finds them; after the body at
    point `t` each input's buffer at its block and the result's at `out1_2` of the input blocks; the invariant is
    the scoped buffers no window stages and the generator register, untouched; nothing owed. The two input windows
    read one array: each holds it at one half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- The shares the core holds the three windows' arrays at. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealDecoder.lean ====
/-
  The third region of the program: the decoder call, on a grid of 16 batch entries by 4 blocks of 512 rows.
  At a point the body reads a [1, 512, 1024] block of the attention's result and the two whole weight matrices,
  and stores one [1, 512, 1024] block of the program's result. This module says what each staging buffer holds
  when the body is called and what the body leaves in the result's buffer, proves the body's triple, and packs both
  into the pipeline's proof data, at any contents `V` of the arrays on entering the region and at any float instance.
-/
import proofs.«121055_j46617575031493_1_alg».proof.Proof.Gen.KernelIdeal.Launch
import proofs.«121055_j46617575031493_1_alg».proof.Proof.Gen.KernelIdeal.Skeleton
import proofs.«121055_j46617575031493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (the weight matrices are
    fetched once and keep their block index). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the result's buffer -/

abbrev rBlk2 : Rect S1x512x1024 := Rect.unit (s := S1x512x1024) ![0, 0, 0] S1x512x1024.size inb_S1x512x1024_S1x512x1024_0_0_0
abbrev rMat2 : Rect S1024x1024 := Rect.unit (s := S1024x1024) ![0, 0] S1024x1024.size inb_S1024x1024_S1024x1024_0_0

/-- The result window's buffer after the body: its one store, over the whole buffer, of the body's value of the
    three loaded blocks. -/
def out2_3 (x0 : Vec F S1x512x1024 .f32) (x1 x2 : Vec F S1024x1024 .f32) : Vec F S1x512x1024 .f32 :=
  View.canon [⟨rBlk2, k2_pay1 (View.ld x0 rBlk2) (View.ld x1 rMat2) (View.ld x2 rMat2)⟩]

/-- The store covers the buffer. -/
theorem cover2_3 (p0 : Vec F S1x512x1024 .f32) (y : S1x512x1024.Idx) :
    ∃ pc ∈ ([⟨rBlk2, p0⟩] : List (View.Piece (Elt F) S1x512x1024 .f32)), y ∈ pc.1.set :=
  View.cover_of_tiled [⟨rBlk2, p0⟩] S1x512x1024.size (by rfl) y

/-! ## The body's triple -/

set_option maxHeartbeats 1000000 in
/-- On whole staging buffers, the inputs' at contents `x0`, `x1`, `x2` and the result's at anything, the body runs
    to the continuation holding the inputs' as they were and the result's at `out2_3` of them. -/
theorem sound_kernel2 (c : Dev nD) (E : Set ℕ) (i : grid2.Coords) (arg2 : Memref sig .tc .vmem S1x512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x512x1024 .f32) (harg5 : arg5.IsWhole)
    (x0 : Vec F S1x512x1024 .f32) (x1 x2 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__dec_kernel i arg2 harg2 arg3 harg3 arg4 harg4 arg5 harg5) K := by
  simp only [cc2__dec_kernel_eq_skeleton]; unfold cc2__dec_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the decoder's pipeline on core `c`: the arrays as the region finds them; after the body at
    point `t` each input's buffer at its block and the result's at `out2_3` of the input blocks; the invariant
    is the scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KernelIdealRun.lean ====
/-
  The program's run: three kernel regions one after the other, each entered with every unscoped buffer of the core
  whole at the contents the region before it left. The contents at the three boundaries are the launch memory with
  the encoder's, then the attention's, then the decoder's result array replaced by what that region's write-backs
  leave. The conclusion names the program's result array after the run and says every argument array is unchanged,
  at any float instance.
-/
import proofs.«121055_j46617575031493_1_alg».proof.Proof.KernelIdealEncoder
import proofs.«121055_j46617575031493_1_alg».proof.Proof.KernelIdealAttention
import proofs.«121055_j46617575031493_1_alg».proof.Proof.KernelIdealDecoder

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the encoder region: its result array at what its write-backs leave. -/
def W1 (c : Dev nD) : Valuation τ sig (Elt F) :=
  Function.update (W0 m c) main_v0 ((dat0 (V0 m) c).arrAt 4 cfg0.N)
abbrev V1 : (c : Dev nD) → (b : Ref sig .tc) → Buf (Elt F) ((c : Thread nD τ).loc b) := fun c b => W1 m c b
/-- After the attention region: its result array at what its write-backs leave. -/
def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b
/-- After the decoder region: the program's result array at what its write-backs leave. -/
def W3 (c : Dev nD) : Valuation τ sig (Elt F) :=
  Function.update (W2 m c) main_v2 ((dat2 (V2 m) c).arrAt 3 cfg2.N)
abbrev V3 : (c : Dev nD) → (b : Ref sig .tc) → Buf (Elt F) ((c : Thread nD τ).loc b) := fun c b => W3 m c b

theorem W1_out (c : Dev nD) : W1 m c (Proc.devRef .tc main_v0) = (dat0 (V0 m) c).arrAt 4 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb : (Proc.devRef .tc b : DevRef τ sig) ≠ Proc.devRef .tc main_v0) ..
theorem W2_out (c : Dev nD) : W2 m c (Proc.devRef .tc main_v1) = (dat1 (V1 m) c).arrAt 2 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb : (Proc.devRef .tc b : DevRef τ sig) ≠ Proc.devRef .tc main_v1) ..
theorem W3_out (c : Dev nD) : W3 m c (Proc.devRef .tc main_v2) = (dat2 (V2 m) c).arrAt 3 cfg2.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb : (Proc.devRef .tc b : DevRef τ sig) ≠ Proc.devRef .tc main_v2) ..

/-! ## What each region leaves: its arrays at the exit contents, every other buffer as entered -/

theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans ((A_eq0 (V0 m) c 0).trans (W1_of_ne m c main_arg0 (by decide)).symm)
  | ⟨1, _⟩ => ((dat0 (V0 m) c).arrAt_in 1 rfl _).trans ((A_eq0 (V0 m) c 1).trans (W1_of_ne m c main_arg1 (by decide)).symm)
  | ⟨2, _⟩ => ((dat0 (V0 m) c).arrAt_in 2 rfl _).trans ((A_eq0 (V0 m) c 2).trans (W1_of_ne m c main_arg2 (by decide)).symm)
  | ⟨3, _⟩ => ((dat0 (V0 m) c).arrAt_in 3 rfl _).trans ((A_eq0 (V0 m) c 3).trans (W1_of_ne m c main_arg3 (by decide)).symm)
  | ⟨4, _⟩ => (W1_out m c).symm
theorem hrest0 (c : Dev nD) : ∀ b, b ∉ Finset.univ.image (Pipeline.arrRef spec0) → V1 m c b = V0 m c b :=
  fun b hb => W1_of_ne m c b fun e => hb (e ▸ Finset.mem_image.mpr ⟨4, Finset.mem_univ _, rfl⟩)

theorem hF1 (c : Dev nD) (w : Fin cfg1.W) : (dat1 (V1 m) c).arrAt w cfg1.N = V2 m c (Pipeline.arrRef spec1 w) :=
  match w with
  | ⟨0, _⟩ => ((dat1 (V1 m) c).arrAt_in 0 rfl _).trans ((A_eq1 (V1 m) c 0).trans (W2_of_ne m c main_v0 (by decide)).symm)
  | ⟨1, _⟩ => ((dat1 (V1 m) c).arrAt_in 1 rfl _).trans ((A_eq1 (V1 m) c 1).trans (W2_of_ne m c main_v0 (by decide)).symm)
  | ⟨2, _⟩ => (W2_out m c).symm
theorem hrest1 (c : Dev nD) : ∀ b, b ∉ Finset.univ.image (Pipeline.arrRef spec1) → V2 m c b = V1 m c b :=
  fun b hb => W2_of_ne m c b fun e => hb (e ▸ Finset.mem_image.mpr ⟨2, Finset.mem_univ _, rfl⟩)

theorem hF2 (c : Dev nD) (w : Fin cfg2.W) : (dat2 (V2 m) c).arrAt w cfg2.N = V3 m c (Pipeline.arrRef spec2 w) :=
  match w with
  | ⟨0, _⟩ => ((dat2 (V2 m) c).arrAt_in 0 rfl _).trans ((A_eq2 (V2 m) c 0).trans (W3_of_ne m c main_v1 (by decide)).symm)
  | ⟨1, _⟩ => ((dat2 (V2 m) c).arrAt_in 1 rfl _).trans ((A_eq2 (V2 m) c 1).trans (W3_of_ne m c main_arg4 (by decide)).symm)
  | ⟨2, _⟩ => ((dat2 (V2 m) c).arrAt_in 2 rfl _).trans ((A_eq2 (V2 m) c 2).trans (W3_of_ne m c main_arg5 (by decide)).symm)
  | ⟨3, _⟩ => (W3_out m c).symm
theorem hrest2 (c : Dev nD) : ∀ b, b ∉ Finset.univ.image (Pipeline.arrRef spec2) → V3 m c b = V2 m c b :=
  fun b hb => W3_of_ne m c b fun e => hb (e ▸ Finset.mem_image.mpr ⟨3, Finset.mem_univ _, rfl⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and what it
    owes, which is nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The encoder region over the thread state: entered from every unscoped buffer at the launch contents, left at
    the contents with its result array replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: one array behind two windows -/

/-- The attention pipeline's arrays, window by window: the shared array at the two halves of the full share, the
    result array whole. -/
theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    ((dat1 V c).arrays Fw : sProp 𝕄) = iprop(
      (((c : Thread nD τ).loc (Pipeline.arrRef spec1 0)) ↦{fullShare.left} Fw 0)
      ∗ (((c : Thread nD τ).loc (Pipeline.arrRef spec1 1)) ↦{fullShare.right} Fw 1)
      ∗ (((c : Thread nD τ).loc (Pipeline.arrRef spec1 2)) ↦{fullShare} Fw 2)) := by
  have h : ((dat1 V c).arrays Fw : sProp 𝕄)
      = bigSep Finset.univ fun w : Fin cfg1.W => (((c : Thread nD τ).loc (Pipeline.arrRef spec1 w)) ↦{(dat1 V c).share w} Fw w : sProp 𝕄) := by
    unfold Dat.arrays
    exact bigSep_congr fun w _ => by rw [(arr_whole1 w).set_eq_univ]
  rw [h, bigSep_W1, share1_0, share1_1, share1_2]

/-- The two distinct buffers behind the attention pipeline's three windows, each whole. -/
theorem arrBufs1_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v0) ↦{fullShare} G main_v0) ∗ (((c : Thread nD τ).loc main_v1) ↦{fullShare} G main_v1)) := by
  unfold Pipeline.arrBufs
  exact bigSep_eq_bigSepL_of_eq [main_v0, main_v1] (by decide) (by decide) _

/-- Whole, the two buffers are the pipeline's arrays at the contents read off the same valuation: the shared array's
    full share is dealt as its two halves to the two windows that read it. -/
theorem arrays1_of_arrBufs (V : (c : Dev nD) → (b : Ref sig .tc) → Buf (Elt F) ((c : Thread nD τ).loc b)) (c : Dev nD)
    (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    (Pipeline.arrBufs (Ix := Unit) (Name := ℕ) (U := UR sig nD τ) (Lvl := ℕ) spec1 c G : sProp 𝕄) ⊢ (dat1 V c).arrays Fw := by
  rw [arrays1_eq, arrBufs1_eq, hF 0, hF 1, hF 2]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- And back: the two halves of the shared array join to the full share. -/
theorem arrBufs_of_arrays1 (V : (c : Dev nD) → (b : Ref sig .tc) → Buf (Elt F) ((c : Thread nD τ).loc b)) (c : Dev nD)
    (G : (b : Ref sig .tc) → Buf (Elt F) ((c : Thread nD τ).loc b))
    (Fw : (w : Fin cfg1.W) → Buf (Elt F) ((cfg1.win w).arr.view.loc (c : Thread nD τ)))
    (hF : ∀ w, Fw w = G (Pipeline.arrRef spec1 w)) :
    ((dat1 V c).arrays Fw : sProp 𝕄) ⊢ Pipeline.arrBufs (Ix := Unit) (Name := ℕ) (U := UR sig nD τ) (Lvl := ℕ) spec1 c G := by
  rw [arrays1_eq, arrBufs1_eq, hF 0, hF 1, hF 2]
  iintro ⟨Hl, Hr, H1⟩
  isplitl [Hl Hr]
  · iapply (pointsTo_share (PosShare.mem_left_op_right fullShare)).2
    isplitl [Hl]; · iexact Hl
    iexact Hr
  iexact H1

set_option backward.isDefEq.respectTransparency.types false in
/-- The attention region over the thread state: entered from the contents the encoder region left, left at those
    with its result array replaced. Its two input windows read one array, so the arrays are sorted out of the
    unscoped buffers, and put back, through the two buffers behind them. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.unscopedBufs_split₀ (Ix := Unit) (Name := ℕ) (U := UR sig nD τ) (Lvl := ℕ) (Pipeline.pin (pcfgs (F := F)) adm) 1
      winFacts₀1.arr_unscoped c (V1 m c)
    rw [Pipeline.unscopedBufs_held] at hsplit
    have harr := arrays1_of_arrBufs (V1 m) c (V1 m c) ((pdats m 1 c).arrAt · 0) (fun _ => rfl)
    iintro ⟨⟨Hub, Hp, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Pipeline.pin (pcfgs (F := F)) adm) 1
      winFacts₀1.arr_unscoped c (V2 m c)
    rw [Pipeline.unscopedBufs_held] at hsplit
    have harr : ((pdats m 1 c).arrays (fun w => (pdats m 1 c).arrAt w (Pipeline.pin (pcfgs (F := F)) adm 1).N) : sProp 𝕄)
        ⊢ Pipeline.arrBufs (Ix := Unit) (Name := ℕ) (U := UR sig nD τ) (Lvl := ℕ) spec1 c (V2 m c) :=
      arrBufs_of_arrays1 (V1 m) c (V2 m c) ((pdats m 1 c).arrAt · cfg1.N) (hF1 m c)
    have hrest : (Pipeline.unscopedRest (Ix := Unit) (Name := ℕ) (U := UR sig nD τ) (Lvl := ℕ) spec1 c (V1 m c) : sProp 𝕄)
        = Pipeline.unscopedRest spec1 c (V2 m c) := by
      unfold Pipeline.unscopedRest
      exact bigSep_congr fun b hb => by rw [hrest1 m c b (Finset.mem_sdiff.mp hb).2]
    iintro ⟨Ha, HO, HY, Hrest⟩
    ihave Hb := harr $$ Ha
    ihave Hrest' := (Entails.of_eq hrest) $$ Hrest
    imodintro
    isplitl [Hb Hrest']
    · iapply (Entails.of_eq hsplit.symm); isplitl [Hb] <;> iassumption
    isplitl [HY]; · iexact HY
    unfold Pipeline.Dat.owesAt Pipeline.owesWithin
    icases HO with ⟨%W, -, HO⟩; iexists W; iexact HO

set_option backward.isDefEq.respectTransparency.types false in
/-- The decoder region over the thread state: entered from the contents the attention region left, left at those
    with the program's result array replaced, which is what the launch reads at the end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's three regions in order. -/
abbrev segs : List (Pipeline.Seg (pcfgs (F := F)) adm (pdats m) () defs₀ 𝒱₀ L lv) :=
  [ .region (reg0 m), .region (reg1 m), .region (reg2 m) ]
/-- The program is the run of the three regions. -/
theorem main_run (c : Dev nD) : main (F := F) c = Pipeline.Seg.run (segs m) := (main_chain c).trans (by chain_rfl)

/-- What the boundaries' contents hold at the arrays the regions read and at the arguments. -/
theorem W3_main_v2 (c : Dev nD) : W3 m c (Proc.devRef .tc main_v2) = (dat2 (V2 m) c).arrAt 3 cfg2.N := W3_out m c
theorem V2_main_v1 (c : Dev nD) : V2 m c main_v1 = (dat1 (V1 m) c).arrAt 2 cfg1.N := W2_out m c
theorem V1_main_v0 (c : Dev nD) : V1 m c main_v0 = (dat0 (V0 m) c).arrAt 4 cfg0.N := W1_out m c
theorem V2_main_arg4 (c : Dev nD) : V2 m c main_arg4 = m ((c : Thread nD τ).loc main_arg4) :=
  (W2_of_ne m c main_arg4 (by decide)).trans (W1_of_ne m c main_arg4 (by decide))
theorem V2_main_arg5 (c : Dev nD) : V2 m c main_arg5 = m ((c : Thread nD τ).loc main_arg5) :=
  (W2_of_ne m c main_arg5 (by decide)).trans (W1_of_ne m c main_arg5 (by decide))
/-- No region writes an argument. -/
theorem W3_arg (c : Dev nD) (b : Ref sig .tc) (h0 : b ≠ main_v0) (h1 : b ≠ main_v1) (h2 : b ≠ main_v2) :
    W3 m c (Proc.devRef .tc b) = m ((c : Thread nD τ).loc b) :=
  (W3_of_ne m c b h2).trans ((W2_of_ne m c b h1).trans (W1_of_ne m c b h0))

set_option backward.isDefEq.respectTransparency.types false in
/-- THE RUN, at any float instance: from any memory with zero counters every weakly fair execution of the program on
    the TensorCores terminates, nothing faulting; the result array ends at what the decoder region's write-backs leave
    over the contents the attention region left, and every argument array ends as launched. -/
theorem run : θ_run defs (onTc (τ := τ) (main (F := F))) ⟨m, fun _ => 0, ρ⟩ (fun r => ∀ c : Dev nD,
      r.2.mem ((c.tc : Thread nD τ).loc main_v2) = (dat2 (V2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide)),
       (h c _ (mem_uc main_arg5 (by decide))).trans (W3_arg m c main_arg5 (by decide) (by decide) (by decide))⟩)

end Cert.KernelIdeal.Frame

end
-- ==== Proof.Spec.lean ====
/-
  What the program computes, stage by stage, as functions of whole arrays on the extended reals.

  A row of 1024 features goes through a two-layer perceptron without bias: each layer contracts the row with a
  weight matrix along the matrix's SECOND axis (the matrix is applied transposed) and clips at zero from below.
  The encoder applies the perceptron to the input plus the position table (one table for every batch entry) and
  divides each resulting row by its Euclidean norm plus a small constant. The attention stage, for a batch entry
  with rows y, replaces row s by the sum over rows t of (y_s · y_t) y_t, with no normalisation. The decoder applies
  a second perceptron to each row. Sums are sums of extended reals over `Fin n`; no law beyond the operations'
  own definitions joins this specification to either program.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A batch of 16 sequences of 2048 rows of 1024 features. -/
abbrev SAct : Shape := ⟨3, ![16, 2048, 1024]⟩
/-- The position table: one sequence of 2048 rows of 1024 features. -/
abbrev SPos : Shape := ⟨3, ![1, 2048, 1024]⟩
/-- A weight matrix, 1024 output features by 1024 input features. -/
abbrev SMat : Shape := ⟨2, ![1024, 1024]⟩

/-- A layer: output feature `k` of the row `a` contracted with row `k` of the matrix, clipped at zero. -/
def layer (a : Fin 1024 → EReal) (w : FVec Ideal SMat .f32) (k : Fin 1024) : EReal :=
  max (∑ d : Fin 1024, a d * w (ix2 k d)) 0

/-- Two layers, one after the other. -/
def mlp (a : Fin 1024 → EReal) (w0 w1 : FVec Ideal SMat .f32) (e : Fin 1024) : EReal :=
  layer (fun k => layer a w0 k) w1 e

/-- Row `s` of batch entry `b` of the input with the position table's row `s` added. -/
def encIn (x : FVec Ideal SAct .f32) (pos : FVec Ideal SPos .f32) (b : Fin 16) (s : Fin 2048) (d : Fin 1024) : EReal :=
  x (ix3 b s d) + pos (ix3 (0 : Fin 1) s d)

/-- The encoder's perceptron on that row. -/
def encHidden (x : FVec Ideal SAct .f32) (pos : FVec Ideal SPos .f32) (w0 w1 : FVec Ideal SMat .f32)
    (b : Fin 16) (s : Fin 2048) (e : Fin 1024) : EReal :=
  mlp (encIn x pos b s) w0 w1 e

/-- The encoder at (b, s, e): the perceptron's feature divided by the row's norm plus the constant 0x358637BD. -/
def encAt (x : FVec Ideal SAct .f32) (pos : FVec Ideal SPos .f32) (w0 w1 : FVec Ideal SMat .f32)
    (b : Fin 16) (s : Fin 2048) (e : Fin 1024) : EReal :=
  Ideal.div (encHidden x pos w0 w1 b s e)
    (Ideal.sqrt (∑ k : Fin 1024, encHidden x pos w0 w1 b s k * encHidden x pos w0 w1 b s k) + Ideal.ofBits .f32 0x358637BD#32)

/-- The encoder's result array. -/
def enc (x : FVec Ideal SAct .f32) (pos : FVec Ideal SPos .f32) (w0 w1 : FVec Ideal SMat .f32) : FVec Ideal SAct .f32 :=
  fun i => encAt x pos w0 w1 (i 0) (i 1) (i 2)

theorem enc_apply (x : FVec Ideal SAct .f32) (pos : FVec Ideal SPos .f32) (w0 w1 : FVec Ideal SMat .f32)
    (b : Fin 16) (s : Fin 2048) (e : Fin 1024) : enc x pos w0 w1 (ix3 b s e) = encAt x pos w0 w1 b s e := rfl

/-- The similarity of rows `s` and `t` of batch entry `b`. -/
def sim (y : FVec Ideal SAct .f32) (b : Fin 16) (s t : Fin 2048) : EReal :=
  ∑ e : Fin 1024, y (ix3 b s e) * y (ix3 b t e)

/-- The attention stage at (b, s, d): the rows of the batch entry weighted by their similarity to row `s`. -/
def attnAt (y : FVec Ideal SAct .f32) (b : Fin 16) (s : Fin 2048) (d : Fin 1024) : EReal :=
  ∑ t : Fin 2048, sim y b s t * y (ix3 b t d)

/-- The attention stage's result array. -/
def attn (y : FVec Ideal SAct .f32) : FVec Ideal SAct .f32 :=
  fun i => attnAt y (i 0) (i 1) (i 2)

theorem attn_apply (y : FVec Ideal SAct .f32) (b : Fin 16) (s : Fin 2048) (d : Fin 1024) :
    attn y (ix3 b s d) = attnAt y b s d := rfl

/-- The decoder at (b, s, e): the second perceptron on row `s` of batch entry `b`. -/
def decAt (z : FVec Ideal SAct .f32) (w0 w1 : FVec Ideal SMat .f32) (b : Fin 16) (s : Fin 2048) (e : Fin 1024) : EReal :=
  mlp (fun d => z (ix3 b s d)) w0 w1 e

/-- The decoder's result array. -/
def dec (z : FVec Ideal SAct .f32) (w0 w1 : FVec Ideal SMat .f32) : FVec Ideal SAct .f32 :=
  fun i => decAt z w0 w1 (i 0) (i 1) (i 2)

theorem dec_apply (z : FVec Ideal SAct .f32) (w0 w1 : FVec Ideal SMat .f32) (b : Fin 16) (s : Fin 2048) (e : Fin 1024) :
    dec z w0 w1 (ix3 b s e) = decAt z w0 w1 b s e := rfl

/-- The whole program: encoder, attention, decoder. -/
def whole (x : FVec Ideal SAct .f32) (pos : FVec Ideal SPos .f32) (ew0 ew1 dw0 dw1 : FVec Ideal SMat .f32) : FVec Ideal SAct .f32 :=
  dec (attn (enc x pos ew0 ew1)) dw0 dw1

end Cert.Spec

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.EncoderValue.lean ====
/-
  The encoder region's result array, at the ideal instance, as one function of the four arrays it reads.

  The body's value at an entry of its block: the two-layer perceptron of the block's row plus the table's row,
  divided by the row's Euclidean norm plus the constant. Each block is read where the result's block sits in its
  array, so what a point writes back is its block of `Spec.enc`; the 64 blocks fill the result array.
-/
import proofs.«121055_j46617575031493_1_alg».proof.Proof.KernelIdealEncoder
import proofs.«121055_j46617575031493_1_alg».proof.Proof.Spec
import proofs.«121055_j46617575031493_1_alg».proof.Proof.LibTransposedRhsDot
import proofs.«121055_j46617575031493_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EncoderValue

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

/-! ## The body's value at an entry -/

/-- A [1, 512, 1024] block viewed as [512, 1024] reads (0, r, d) at (r, d). -/
theorem blockRows_apply {α : Type} (x : S1x512x1024.Idx → α) (h : S1x512x1024.ShapeCasts S512x1024) (r : Fin 512) (d : Fin 1024) :
    shapeCast S512x1024 x h (ix2 r d) = x (ix3 (0 : Fin 1) r d) :=
  shapeCast_apply x h _ _ (by
    rw [Shape.rowMajor_val_three, Shape.rowMajor_val_two]
    show (0 * 512 + r.val) * 1024 + d.val = r.val * 1024 + d.val
    omega)

/-- A [512, 1024] array stored as a [1, 512, 1024] block reads (r, e) at (0, r, e). -/
theorem rowsBlock_apply {α : Type} (x : S512x1024.Idx → α) (h : S512x1024.ShapeCasts S1x512x1024) (u : Fin 1) (r : Fin 512) (e : Fin 1024) :
    shapeCast S1x512x1024 x h (ix3 u r e) = x (ix2 r e) :=
  shapeCast_apply x h _ _ (by
    have hu : u.val = 0 := by omega
    rw [Shape.rowMajor_val_three, Shape.rowMajor_val_two]
    show r.val * 1024 + e.val = (u.val * 512 + r.val) * 1024 + e.val
    rw [hu]; omega)

/-- One layer of the body: the rows of `l` contracted with the rows of `w`, clipped at zero, is `Spec.layer` of the row. -/
theorem layer_apply {φ₁ : FTy} (l : FVec Ideal S512x1024 φ₁) (w : Vec Ideal S1024x1024 .f32) (hb : FTy.bits .bf16 < FTy.bits .f32)
    (r : Fin 512) (k : Fin 1024) :
    maximumf (matmul dot_S512x1024_S1024x1024_S512x1024_1_1_0_0_n_n none l (truncf .bf16 w hb) (constant S512x1024 .f32 0x00000000#32))
        (broadcast S512x1024 (Scalar.ofBits .f32 0x00000000#32)) (ix2 r k)
      = Cert.Spec.layer (fun d => l (ix2 r d)) w k := by
  show max (FloatOps.matmul dot_S512x1024_S1024x1024_S512x1024_1_1_0_0_n_n none l (truncf .bf16 w hb) (constant (F := Ideal) S512x1024 .f32 0x00000000#32) (ix2 r k))
      (Ideal.ofBits .f32 0x00000000#32) = max (∑ d : Fin 1024, l (ix2 r d) * w (ix2 k d)) 0
  rw [Ideal.ofBits_zero_f32]
  exact congrArg (fun z => max z 0) (Idealize.ShloMosaic.TransposedRhsDot.matmul_zero_apply _ rfl none l (truncf .bf16 w hb) (ix2 r k))

/-- The row norm plus the constant, spread over the row: at (r, e) the square root of the sum of the row's squares, plus the constant. -/
theorem rowNorm_apply (h : FVec Ideal S512x1024 .f32) (hr : S512x1024.Reduces [1] S512) (hφ : FKind.Formats .f32)
    (hacc : (0x00000000#32 : BitVec FTy.f32.bits) = FKind.add.neutral .f32 hφ)
    (hc : S512.ShapeCasts S512x1) (hb : S512x1.Broadcasts S512x1024) (r : Fin 512) (e : Fin 1024) :
    broadcastTo S512x1024 (addf (sqrt (shapeCast S512x1 (multiReduction .add [1] S512 (mulf h h) 0x00000000#32 hr hφ hacc) hc))
        (broadcast S512x1 (Scalar.ofBits .f32 0x358637BD#32))) hb (ix2 r e)
      = Ideal.sqrt (∑ k : Fin 1024, h (ix2 r k) * h (ix2 r k)) + Ideal.ofBits .f32 0x358637BD#32 := by
  refine (Cert.Keepdims.broadcastTo_a1_ab_apply _ hb r e).trans ?_
  refine congrArg (fun z => Ideal.sqrt z + Ideal.ofBits .f32 0x358637BD#32) ?_
  refine (Cert.Keepdims.shapeCast_a_a1_apply _ hc r (0 : Fin 1)).trans ?_
  refine (Ideal.multiReduction_add_single (mulf h h) 0x00000000#32 hr hφ hacc (ix1 r)).trans ?_
  show ∑ k : Fin 1024, mulf h h (hr.lift (ix1 r) k) = _
  refine Finset.sum_congr rfl fun k _ => ?_
  have hk : hr.lift (ix1 r) k = ix2 r k := funext fun a => Fin.ext (by
    match a with
    | ⟨0, _⟩ => rfl
    | ⟨1, _⟩ => rfl)
  rw [hk]
  rfl

/-- The perceptron's output on the block's rows: the values the body clips after its second product. -/
def hidden (x0 x1 : Vec Ideal S1x512x1024 .f32) (x2 x3 : Vec Ideal S1024x1024 .f32) : FVec Ideal S512x1024 .f32 :=
  maximumf (matmul dot_S512x1024_S1024x1024_S512x1024_1_1_0_0_n_n none
      (truncf .bf16 (maximumf (matmul dot_S512x1024_S1024x1024_S512x1024_1_1_0_0_n_n none
          (truncf .bf16 (addf (shapeCast S512x1024 x0 shapeCasts_S1x512x1024_S512x1024) (shapeCast S512x1024 x1 shapeCasts_S1x512x1024_S512x1024)) bitsLt_bf16_f32)
          (truncf .bf16 x2 bitsLt_bf16_f32) (constant S512x1024 .f32 0x00000000#32))
        (broadcast S512x1024 (Scalar.ofBits .f32 0x00000000#32))) bitsLt_bf16_f32)
      (truncf .bf16 x3 bitsLt_bf16_f32) (constant S512x1024 .f32 0x00000000#32))
    (broadcast S512x1024 (Scalar.ofBits .f32 0x00000000#32))

/-- The body's value is the perceptron's output divided by its row norm plus the constant, stored as a [1, 512, 1024] block. -/
theorem pay_eq (x0 x1 : Vec Ideal S1x512x1024 .f32) (x2 x3 : Vec Ideal S1024x1024 .f32) :
    k0_pay1 x0 x1 x2 x3 = shapeCast S1x512x1024 (divf (hidden x0 x1 x2 x3)
      (broadcastTo S512x1024 (addf (sqrt (shapeCast S512x1 (multiReduction .add [1] S512 (mulf (hidden x0 x1 x2 x3) (hidden x0 x1 x2 x3)) 0x00000000#32
          reduces_S512x1024_S512 (.inl rfl) rfl) shapeCasts_S512_S512x1))
        (broadcast S512x1 (Scalar.ofBits .f32 0x358637BD#32))) broadcasts_S512x1_S512x1024)) shapeCasts_S512x1024_S1x512x1024 := rfl

/-- Row `r` of the input block with row `r` of the table's block added. -/
def blkIn (x0 x1 : Vec Ideal S1x512x1024 .f32) (r : Fin 512) (d : Fin 1024) : EReal :=
  x0 (ix3 (0 : Fin 1) r d) + x1 (ix3 (0 : Fin 1) r d)

/-- The perceptron's output at (r, e) is `Spec.mlp` of that row. -/
theorem hidden_apply (x0 x1 : Vec Ideal S1x512x1024 .f32) (x2 x3 : Vec Ideal S1024x1024 .f32) (r : Fin 512) (e : Fin 1024) :
    hidden x0 x1 x2 x3 (ix2 r e) = Cert.Spec.mlp (blkIn x0 x1 r) x2 x3 e := by
  unfold hidden
  refine (layer_apply _ x3 _ r e).trans ?_
  unfold Cert.Spec.mlp
  refine congrArg (fun a => Cert.Spec.layer a x3 e) (funext fun k => ?_)
  refine (layer_apply _ x2 _ r k).trans ?_
  refine congrArg (fun a => Cert.Spec.layer a x2 k) (funext fun d => ?_)
  show shapeCast S512x1024 x0 _ (ix2 r d) + shapeCast S512x1024 x1 _ (ix2 r d) = _
  rw [blockRows_apply, blockRows_apply]
  rfl

/-- The body's value at (0, r, e). -/
theorem pay_apply (x0 x1 : Vec Ideal S1x512x1024 .f32) (x2 x3 : Vec Ideal S1024x1024 .f32) (u : Fin 1) (r : Fin 512) (e : Fin 1024) :
    k0_pay1 x0 x1 x2 x3 (ix3 u r e)
      = Ideal.div (Cert.Spec.mlp (blkIn x0 x1 r) x2 x3 e)
          (Ideal.sqrt (∑ k : Fin 1024, Cert.Spec.mlp (blkIn x0 x1 r) x2 x3 k * Cert.Spec.mlp (blkIn x0 x1 r) x2 x3 k) + Ideal.ofBits .f32 0x358637BD#32) := by
  rw [pay_eq]
  refine (rowsBlock_apply _ _ u r e).trans ?_
  refine (congrArg (Ideal.div (hidden x0 x1 x2 x3 (ix2 r e))) (rowNorm_apply (hidden x0 x1 x2 x3) _ _ _ _ _ r e)).trans ?_
  rw [hidden_apply]
  refine congrArg (fun z => Ideal.div _ (Ideal.sqrt z + _)) (Finset.sum_congr rfl fun k _ => ?_)
  rw [hidden_apply]

/-! ## From the blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: the input's block is the result's; the table's block is the result's row block of the
    table's one batch entry; the matrices' block is the whole matrix; the result's block indices stay in their ranges. -/
theorem idx_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = 0
    ∧ win0_1.index t (1 : Fin 3) = win0_4.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 15 ∧ win0_4.index t (1 : Fin 3) ≤ 3 ∧ win0_4.index t (2 : Fin 3) = 0 :=
  (by decide +kernel : ∀ t : Fin grid0.N, _)

/-- Every block of the result array is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

variable (V : (c : Dev nD) → (b : Ref sig .tc) → Buf (Elt Ideal) ((c : Thread nD τ).loc b))

/-- The input's block at point `t` is rows of batch entry `b` of the input, where the result's block sits. -/
theorem iblk_x (c : Dev nD) (t : Fin cfg0.N) (u : Fin 1) (r : Fin 512) (d : Fin 1024) (b : Fin 16) (s : Fin 2048)
    (hb : b.val = win0_4.index t (0 : Fin 3)) (hs : s.val = win0_4.index t (1 : Fin 3) * 512 + r.val) :
    iblk0 V c 0 t (ix3 u r d) = (V c main_arg0 : S16x2048x1024.Idx → EReal) (ix3 b s d) := by
  obtain ⟨e0, e1, e2, -⟩ := idx_facts t
  unfold iblk0
  rw [View.read_apply]
  show (V c main_arg0 : S16x2048x1024.Idx → EReal) (((cfg0.win 0).blk t).view.emb (ix3 u r d)) = _
  refine congrArg _ (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 512 + 1 * r.val = s.val; omega
  | ⟨2, _⟩ => show win0_0.index t (2 : Fin 3) * 1024 + 1 * d.val = d.val; omega

/-- The table's block at point `t` is the same rows of the table's one batch entry. -/
theorem iblk_pos (c : Dev nD) (t : Fin cfg0.N) (u : Fin 1) (r : Fin 512) (d : Fin 1024) (s : Fin 2048)
    (hs : s.val = win0_4.index t (1 : Fin 3) * 512 + r.val) :
    iblk0 V c 1 t (ix3 u r d) = (V c main_arg1 : S1x2048x1024.Idx → EReal) (ix3 (0 : Fin 1) s d) := by
  obtain ⟨-, -, -, e3, e4, e5, -⟩ := idx_facts t
  unfold iblk0
  rw [View.read_apply]
  show (V c main_arg1 : S1x2048x1024.Idx → EReal) (((cfg0.win 1).blk t).view.emb (ix3 u r d)) = _
  refine congrArg _ (funext fun a => Fin.ext ?_)
  have hu : u.val = 0 := by omega
  match a with
  | ⟨0, _⟩ => show win0_1.index t (0 : Fin 3) * 1 + 1 * u.val = 0; omega
  | ⟨1, _⟩ => show win0_1.index t (1 : Fin 3) * 512 + 1 * r.val = s.val; omega
  | ⟨2, _⟩ => show win0_1.index t (2 : Fin 3) * 1024 + 1 * d.val = d.val; omega

/-- The first weight matrix's block at every point is the whole matrix. -/
theorem iblk_w0 (c : Dev nD) (t : Fin cfg0.N) :
    (iblk0 V c 2 t : S1024x1024.Idx → EReal) = (V c main_arg2 : S1024x1024.Idx → EReal) := by
  obtain ⟨-, -, -, -, -, -, e6, e7, -⟩ := idx_facts t
  unfold iblk0
  refine funext fun (y : S1024x1024.Idx) => ?_
  rw [View.read_apply]
  show (V c main_arg2 : S1024x1024.Idx → EReal) (((cfg0.win 2).blk t).view.emb y) = _
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The second weight matrix's block at every point is the whole matrix. -/
theorem iblk_w1 (c : Dev nD) (t : Fin cfg0.N) :
    (iblk0 V c 3 t : S1024x1024.Idx → EReal) = (V c main_arg3 : S1024x1024.Idx → EReal) := by
  obtain ⟨-, -, -, -, -, -, -, -, e8, e9, -⟩ := idx_facts t
  unfold iblk0
  refine funext fun (y : S1024x1024.Idx) => ?_
  rw [View.read_apply]
  show (V c main_arg3 : S1024x1024.Idx → EReal) (((cfg0.win 3).blk t).view.emb y) = _
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- What point `t` writes back is its block of `Spec.enc` of the arrays as the region finds them. -/
theorem flushed_eq (c : Dev nD) (t : Fin cfg0.N) :
    (dat0 (F := Ideal) V c).flushed 4 t
      = ((cfg0.win 4).blk t).view.read (Elt Ideal) (Cert.Spec.enc (V c main_arg0) (V c main_arg1) (V c main_arg2) (V c main_arg3)) := by
  show (cfg0.win 4).cut (grid0.coords t) ((dat0 (F := Ideal) V c).after 4 t) = _
  rw [after0_4]
  unfold out0_4
  rw [View.canon_unit_zero zero3]
  simp only [View.ld_unit_zero (S := S1x512x1024) zero3, View.ld_unit_zero (S := S1024x1024) zero2]
  obtain ⟨-, -, -, -, -, -, -, -, -, -, e10, e11, e12⟩ := idx_facts t
  refine funext fun (y : S1x512x1024.Idx) => ?_
  obtain ⟨u, r, e, rfl⟩ : ∃ (u : Fin 1) (r : Fin 512) (e : Fin 1024), y = ix3 u r e := ⟨y 0, y 1, y 2, eq_ix3 y⟩
  have hu : u.val = 0 := by omega
  -- where the element sits in the array
  have hi : ((cfg0.win 4).blk t).view.emb (ix3 u r e)
      = (ix3 (⟨win0_4.index t (0 : Fin 3), by omega⟩ : Fin 16) (⟨win0_4.index t (1 : Fin 3) * 512 + r.val, by omega⟩ : Fin 2048) e : S16x2048x1024.Idx) :=
    funext fun a => Fin.ext (by
      match a with
      | ⟨0, _⟩ => show win0_4.index t (0 : Fin 3) * 1 + 1 * u.val = win0_4.index t (0 : Fin 3); omega
      | ⟨1, _⟩ => show win0_4.index t (1 : Fin 3) * 512 + 1 * r.val = win0_4.index t (1 : Fin 3) * 512 + r.val; omega
      | ⟨2, _⟩ => show win0_4.index t (2 : Fin 3) * 1024 + 1 * e.val = e.val; omega)
  show k0_pay1 (iblk0 V c 0 t) (iblk0 V c 1 t) (iblk0 V c 2 t) (iblk0 V c 3 t) (ix3 u r e)
    = Cert.Spec.enc (V c main_arg0) (V c main_arg1) (V c main_arg2) (V c main_arg3) (((cfg0.win 4).blk t).view.emb (ix3 u r e))
  rw [hi, Cert.Spec.enc_apply]
  refine (pay_apply _ _ _ _ u r e).trans ?_
  unfold Cert.Spec.encAt Cert.Spec.encHidden
  have hin : blkIn (iblk0 V c 0 t) (iblk0 V c 1 t) r
      = Cert.Spec.encIn (V c main_arg0) (V c main_arg1) ⟨win0_4.index t (0 : Fin 3), by omega⟩ ⟨win0_4.index t (1 : Fin 3) * 512 + r.val, by omega⟩ :=
    funext fun d => by
      unfold blkIn Cert.Spec.encIn
      rw [iblk_x V c t 0 r d ⟨win0_4.index t (0 : Fin 3), by omega⟩ ⟨win0_4.index t (1 : Fin 3) * 512 + r.val, by omega⟩ rfl rfl,
        iblk_pos V c t 0 r d ⟨win0_4.index t (1 : Fin 3) * 512 + r.val, by omega⟩ rfl]
  rw [hin, iblk_w0 V c t, iblk_w1 V c t]

/-- An index of the result array is in point `t`'s block iff each coordinate is in the block's range on its axis. -/
theorem mem_blk (t : Fin cfg0.N) (i : S16x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v0).slice (win0_4.rect t)).set ↔ _
  rw [View.set_slice_whole, Rect.mem_set_unit]
  exact Iff.rfl

/-- Every index of the result array is in the block of the point of its batch entry and its rows' block. -/
theorem cover (i : S16x2048x1024.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- After the encoder region's 64 points its result array holds `Spec.enc` of the input, the position table and
    the two weight matrices as the region found them. -/
theorem final (c : Dev nD) :
    (dat0 (F := Ideal) V c).arrAt 4 cfg0.N
      = Cert.Spec.enc (V c main_arg0) (V c main_arg1) (V c main_arg2) (V c main_arg3) :=
  (dat0 (F := Ideal) V c).arrAt_eq_of_cover 4 _ (fun t _ => flushed_eq V c t) cover

end Cert.KernelIdeal.EncoderValue
end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.AttentionValue.lean ====
/-
  The attention region's result array, at the ideal instance, as one function of the array it reads.
-/
import proofs.«121055_j46617575031493_1_alg».proof.Proof.KernelIdealAttention
import proofs.«121055_j46617575031493_1_alg».proof.Proof.Spec
import proofs.«121055_j46617575031493_1_alg».proof.Proof.LibTransposedRhsDot
import proofs.«121055_j46617575031493_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttentionValue

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The body's value at an index -/

/-- A block of 512 rows seen without its unit axis has at (r, d) what the block has at (0, r, d): the two indices
    have one row-major position. -/
theorem rows_of_block (x : Vec Ideal S1x512x1024 .f32) (r : Fin 512) (d : Fin 1024) :
    shapeCast S512x1024 x shapeCasts_S1x512x1024_S512x1024 (ix2 r d) = x (ix3 0 r d) := by
  refine shapeCast_apply x _ (ix2 r d) (ix3 0 r d) ?_
  rw [Shape.rowMajor_val_three, Shape.rowMajor_val_two]
  show ((0 : Nat) * 512 + r.val) * 1024 + d.val = r.val * 1024 + d.val
  omega

/-- The same for the slab of 2048 rows. -/
theorem rows_of_slab (x : Vec Ideal S1x2048x1024 .f32) (t : Fin 2048) (d : Fin 1024) :
    shapeCast S2048x1024 x shapeCasts_S1x2048x1024_S2048x1024 (ix2 t d) = x (ix3 0 t d) := by
  refine shapeCast_apply x _ (ix2 t d) (ix3 0 t d) ?_
  rw [Shape.rowMajor_val_three, Shape.rowMajor_val_two]
  show ((0 : Nat) * 2048 + t.val) * 1024 + d.val = t.val * 1024 + d.val
  omega

/-- A matrix of 512 rows given a leading unit axis has at (0, r, e) what the matrix has at (r, e). -/
theorem block_of_rows (x : FVec Ideal S512x1024 .f32) (r : Fin 512) (e : Fin 1024) :
    shapeCast S1x512x1024 x shapeCasts_S512x1024_S1x512x1024 (ix3 0 r e) = x (ix2 r e) := by
  refine shapeCast_apply x _ (ix3 0 r e) (ix2 r e) ?_
  rw [Shape.rowMajor_val_three, Shape.rowMajor_val_two]
  show r.val * 1024 + e.val = ((0 : Nat) * 512 + r.val) * 1024 + e.val
  omega

/-- The body's value at row `r`, feature `e` of the result block: the scores of the query block's row `r` against
    the slab's rows (a product with the slab transposed; the format changes are the identity on extended reals),
    then the slab's rows weighted by those scores (a plain product with the slab). -/
theorem body_apply (x0 : Vec Ideal S1x512x1024 .f32) (x1 : Vec Ideal S1x2048x1024 .f32) (r : Fin 512) (e : Fin 1024) :
    k1_pay1 (F := Ideal) x0 x1 (ix3 0 r e)
      = ∑ t : Fin 2048, (∑ d : Fin 1024, x0 (ix3 0 r d) * x1 (ix3 0 t d)) * x1 (ix3 0 t e) := by
  unfold k1_pay1
  refine (block_of_rows _ r e).trans ?_
  refine (Cert.PlainDot.matmul_zero_apply dot_S512x2048_S2048x1024_S512x1024_1_0_0_1_n_n rfl none _ _ (ix2 r e)).trans ?_
  refine Finset.sum_congr rfl fun t _ => ?_
  refine congrArg₂ (· * ·) ?_ ?_
  · refine (Idealize.ShloMosaic.TransposedRhsDot.matmul_zero_apply dot_S512x1024_S2048x1024_S512x2048_1_1_0_0_n_n rfl none _ _ (ix2 r t)).trans ?_
    refine Finset.sum_congr rfl fun d _ => ?_
    exact congrArg₂ (· * ·) (rows_of_block x0 r d) (rows_of_slab x1 t d)
  · exact rows_of_slab x1 t e

/-- The body's value on blocks cut from ONE array `y`: when the query block's row `r` is row `s` of batch entry `b`
    of `y` and the slab is the whole batch entry `b` of `y`, it is the attention stage of `y` at (b, s, e), sum for
    sum and product for product. -/
theorem attn_of_blocks (y : FVec Ideal Cert.Spec.SAct .f32) (x0 : Vec Ideal S1x512x1024 .f32) (x1 : Vec Ideal S1x2048x1024 .f32)
    (b : Fin 16) (s : Fin 2048) (r : Fin 512) (e : Fin 1024)
    (h0 : ∀ d : Fin 1024, x0 (ix3 0 r d) = y (ix3 b s d))
    (h1 : ∀ (t : Fin 2048) (d : Fin 1024), x1 (ix3 0 t d) = y (ix3 b t d)) :
    k1_pay1 (F := Ideal) x0 x1 (ix3 0 r e) = Cert.Spec.attn y (ix3 b s e) := by
  rw [body_apply, Cert.Spec.attn_apply]
  unfold Cert.Spec.attnAt Cert.Spec.sim
  refine Finset.sum_congr rfl fun t _ => ?_
  rw [h1 t e]
  refine congrArg (· * _) ?_
  refine Finset.sum_congr rfl fun d _ => ?_
  rw [h0 d, h1 t d]

/-! ## The blocks in the arrays -/

theorem zeros3 : (![0, 0, 0] : Fin 3 → Nat) = fun _ => 0 := funext fun a => by fin_cases a <;> rfl

/-- The printed index maps over the grid's 64 points: the query block has the result block's indices; the key slab
    is the result block's batch entry, from row 0; the feature axis is never split; the result block's indices are
    a batch entry below 16 and a row block below 4. -/
theorem block_indices : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (2 : Fin 3) = 0
    ∧ win1_2.index t (0 : Fin 3) ≤ 15
    ∧ win1_2.index t (1 : Fin 3) ≤ 3 :=
  (by decide +kernel : ∀ t : Fin grid1.N, _)

/-- Every batch entry and row block is some point's result block. -/
theorem block_of_every_entry : ∀ (q0 : Fin 16) (q1 : Fin 4), ∃ t : Fin cfg1.N,
    win1_2.index t (0 : Fin 3) = q0.val ∧ win1_2.index t (1 : Fin 3) = q1.val :=
  (by decide +kernel : ∀ (q0 : Fin 16) (q1 : Fin 4), ∃ t : Fin grid1.N,
    win1_2.index t (0 : Fin 3) = q0.val ∧ win1_2.index t (1 : Fin 3) = q1.val)

/-- What point `t` writes back is block `t` of the attention stage of the array the region reads: an element of a
    block sits in its array, axis by axis, at the block's index times the block's size plus its coordinate in the
    block, so row `r` of the query block is row (row block × 512 + r) of the result block's batch entry, and the
    slab is that batch entry. -/
theorem written_back_eq (c : Dev nD) (t : Fin cfg1.N) :
    (dat1 (F := Ideal) V c).flushed 2 t = ((cfg1.win 2).blk t).view.read (Elt Ideal) (Cert.Spec.attn (V c main_v0)) := by
  show (cfg1.win 2).cut (grid1.coords t) ((dat1 V c).after 2 t) = _
  rw [after1_2]
  unfold out1_2
  rw [View.canon_unit_zero zeros3]
  simp only [View.ld_unit_zero (S := S1x512x1024) zeros3, View.ld_unit_zero (S := S1x2048x1024) zeros3]
  obtain ⟨e0, e1, e2, e3, e4, e5, e6, e7, e8⟩ := block_indices t
  funext j
  obtain ⟨z, r, e, rfl⟩ : ∃ (z : Fin 1) (r : Fin 512) (e : Fin 1024), j = ix3 z r e := ⟨j 0, j 1, j 2, eq_ix3 j⟩
  obtain rfl : z = 0 := Subsingleton.elim _ _
  have hr : r.val < 512 := r.isLt
  have he : e.val < 1024 := e.isLt
  have hi : ((cfg1.win 2).blk t).view.emb (ix3 0 r e)
      = ix3 (⟨win1_2.index t 0, by omega⟩ : Fin 16) (⟨win1_2.index t 1 * 512 + r.val, by omega⟩ : Fin 2048) e := by
    funext a; apply Fin.ext
    match a with
    | ⟨0, _⟩ => show win1_2.index t (0 : Fin 3) * 1 + 1 * 0 = win1_2.index t 0; omega
    | ⟨1, _⟩ => show win1_2.index t (1 : Fin 3) * 512 + 1 * r.val = win1_2.index t 1 * 512 + r.val; omega
    | ⟨2, _⟩ => show win1_2.index t (2 : Fin 3) * 1024 + 1 * e.val = e.val; omega
  show k1_pay1 (iblk1 V c 0 t) (iblk1 V c 1 t) (ix3 0 r e) = Cert.Spec.attn (V c main_v0) (((cfg1.win 2).blk t).view.emb (ix3 0 r e))
  rw [hi]
  refine attn_of_blocks (V c main_v0) (iblk1 V c 0 t) (iblk1 V c 1 t) _ _ r e (fun d => ?_) (fun s d => ?_)
  · show V c main_v0 (((cfg1.win 0).blk t).view.emb (ix3 0 r d)) = _
    refine congrArg (V c main_v0) ?_
    have hd : d.val < 1024 := d.isLt
    funext a; apply Fin.ext
    match a with
    | ⟨0, _⟩ => show win1_0.index t (0 : Fin 3) * 1 + 1 * 0 = win1_2.index t 0; omega
    | ⟨1, _⟩ => show win1_0.index t (1 : Fin 3) * 512 + 1 * r.val = win1_2.index t 1 * 512 + r.val; omega
    | ⟨2, _⟩ => show win1_0.index t (2 : Fin 3) * 1024 + 1 * d.val = d.val; omega
  · show V c main_v0 (((cfg1.win 1).blk t).view.emb (ix3 0 s d)) = _
    refine congrArg (V c main_v0) ?_
    have hd : d.val < 1024 := d.isLt
    have hs : s.val < 2048 := s.isLt
    funext a; apply Fin.ext
    match a with
    | ⟨0, _⟩ => show win1_1.index t (0 : Fin 3) * 1 + 1 * 0 = win1_2.index t 0; omega
    | ⟨1, _⟩ => show win1_1.index t (1 : Fin 3) * 2048 + 1 * s.val = s.val; omega
    | ⟨2, _⟩ => show win1_1.index t (2 : Fin 3) * 1024 + 1 * d.val = d.val; omega

/-! ## The result array -/

/-- An index of the result array is in point `t`'s block iff each coordinate is in the block's range on its axis. -/
theorem mem_block (t : Fin cfg1.N) (i : S16x2048x1024.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v1).slice (win1_2.rect t)).set ↔ _
  rw [View.set_slice_whole, Rect.mem_set_unit]
  exact Iff.rfl

/-- Every index (b, s, e) of the result array is in the block of the point at batch entry `b` and row block
    `s / 512`, and every point writes its block back. -/
theorem cover (i : S16x2048x1024.Idx) :
    ∃ t : Fin cfg1.N, (cfg1.win 2).flush t = true ∧ i ∈ ((cfg1.win 2).blk t).view.set := by
  have hi0 : (i 0).val < 16 := (i 0).isLt
  have hi1 : (i 1).val < 2048 := (i 1).isLt
  have hi2 : (i 2).val < 1024 := (i 2).isLt
  obtain ⟨t, q0, q1⟩ := block_of_every_entry ⟨(i 0).val, hi0⟩ ⟨(i 1).val / 512, by omega⟩
  obtain ⟨e0, e1, e2, e3, e4, e5, e6, e7, e8⟩ := block_indices t
  refine ⟨t, flush1_2 t, ?_⟩
  rw [mem_block]
  intro a
  match a with
  | ⟨0, _⟩ => show win1_2.index t (0 : Fin 3) * 1 ≤ (i 0).val ∧ (i 0).val < win1_2.index t (0 : Fin 3) * 1 + 1; rw [q0]; show (i 0).val * 1 ≤ (i 0).val ∧ (i 0).val < (i 0).val * 1 + 1; omega
  | ⟨1, _⟩ => show win1_2.index t (1 : Fin 3) * 512 ≤ (i 1).val ∧ (i 1).val < win1_2.index t (1 : Fin 3) * 512 + 512; rw [q1]; show (i 1).val / 512 * 512 ≤ (i 1).val ∧ (i 1).val < (i 1).val / 512 * 512 + 512; omega
  | ⟨2, _⟩ => show win1_2.index t (2 : Fin 3) * 1024 ≤ (i 2).val ∧ (i 2).val < win1_2.index t (2 : Fin 3) * 1024 + 1024; omega

/-- After the attention region's 64 points its result array holds `Spec.attn` of the encoder's result as the region
    found it. -/
theorem final (c : Dev nD) :
    (dat1 (F := Ideal) V c).arrAt 2 cfg1.N = Cert.Spec.attn (V c main_v0) :=
  (dat1 V c).arrAt_eq_of_cover 2 _ (fun t _ => written_back_eq V c t) cover

end Cert.KernelIdeal.AttentionValue

end
-- ==== Proof.DecoderValue.lean ====
/-
  The decoder region's result array, at the ideal instance, as one function of the three arrays it reads.
-/
import proofs.«121055_j46617575031493_1_alg».proof.Proof.KernelIdealDecoder
import proofs.«121055_j46617575031493_1_alg».proof.Proof.Spec
import proofs.«121055_j46617575031493_1_alg».proof.Proof.LibTransposedRhsDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DecoderValue

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The body's value at an index -/

/-- One layer of the body on a [512, 1024] block: entry (r, k) of the product with the transposed matrix,
    clipped at zero, is the specification's layer on row r. -/
theorem layer_apply (a : FVec Ideal S512x1024 .bf16) (w : Vec Ideal S1024x1024 .f32) (r : Fin 512) (k : Fin 1024) :
    maximumf (matmul dot_S512x1024_S1024x1024_S512x1024_1_1_0_0_n_n none a
        (truncf .bf16 w bitsLt_bf16_f32 : FVec Ideal S1024x1024 .bf16) (constant (F := Ideal) S512x1024 .f32 0x00000000#32))
      (broadcast S512x1024 (Scalar.ofBits (F := Ideal) .f32 0x00000000#32)) (ix2 r k)
      = Cert.Spec.layer (fun d => a (ix2 r d)) w k := by
  rw [maximumf_apply, broadcast_apply]
  refine congrArg₂ max ?_ Ideal.ofBits_zero_f32
  refine (TransposedRhsDot.matmul_zero_apply _ rfl none a _ (ix2 r k)).trans ?_
  rfl

/-- The body's value at row r, feature e of its block: the two-layer perceptron on row r of the loaded block. -/
theorem pay_apply (x0 : Vec Ideal S1x512x1024 .f32) (w0 w1 : Vec Ideal S1024x1024 .f32) (r : Fin 512) (e : Fin 1024) :
    k2_pay1 x0 w0 w1 (ix3 (0 : Fin 1) r e) = Cert.Spec.mlp (fun d => x0 (ix3 (0 : Fin 1) r d)) w0 w1 e := by
  unfold k2_pay1
  refine (shapeCast_apply _ _ (ix3 (0 : Fin 1) r e) (ix2 r e) ?_).trans ?_
  · rw [Shape.rowMajor_val_two, Shape.rowMajor_val_three]
    show r.val * 1024 + e.val = ((0 : Fin 1).val * 512 + r.val) * 1024 + e.val
    simp
  refine (layer_apply _ w1 r e).trans ?_
  unfold Cert.Spec.mlp
  refine congrArg (fun f => Cert.Spec.layer f w1 e) (funext fun k => ?_)
  refine (truncf_apply (φ := .f32) (ψ := .bf16) _ bitsLt_bf16_f32 _).trans ?_
  refine (layer_apply _ w0 r k).trans ?_
  refine congrArg (fun f => Cert.Spec.layer f w0 k) (funext fun d => ?_)
  refine (truncf_apply (φ := .f32) (ψ := .bf16) _ bitsLt_bf16_f32 _).trans ?_
  refine shapeCast_apply _ _ (ix2 r d) (ix3 (0 : Fin 1) r d) ?_
  rw [Shape.rowMajor_val_two, Shape.rowMajor_val_three]
  show ((0 : Fin 1).val * 512 + r.val) * 1024 + d.val = r.val * 1024 + d.val
  simp

/-- The body's value on blocks that are a row block of `z` and the two matrices: the decoder of `z` there. -/
theorem block_value (z : FVec Ideal Cert.Spec.SAct .f32) (w0 w1 : FVec Ideal Cert.Spec.SMat .f32)
    (x0 : Vec Ideal S1x512x1024 .f32) (x1 x2 : Vec Ideal S1024x1024 .f32) (r : Fin 512) (e : Fin 1024)
    (b : Fin 16) (s : Fin 2048)
    (h0 : ∀ d : Fin 1024, x0 (ix3 (0 : Fin 1) r d) = z (ix3 b s d)) (h1 : x1 = w0) (h2 : x2 = w1) :
    k2_pay1 x0 x1 x2 (ix3 (0 : Fin 1) r e) = Cert.Spec.dec z w0 w1 (ix3 b s e) := by
  subst h1 h2
  rw [pay_apply, Cert.Spec.dec_apply]
  unfold Cert.Spec.decAt
  exact congrArg (fun f => Cert.Spec.mlp f x1 x2 e) (funext h0)

/-! ## From the blocks to the array -/

/-- The zero offsets of a rank-3 and of a rank-2 block, as constant functions. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the input block and the result block have the same block index, both
    at feature block 0, and the two weight matrices are always read whole. -/
theorem block_indices : ∀ t : Fin cfg2.N,
    win2_0.index t (0 : Fin 3) = win2_3.index t (0 : Fin 3)
    ∧ win2_0.index t (1 : Fin 3) = win2_3.index t (1 : Fin 3)
    ∧ win2_0.index t (2 : Fin 3) = 0 ∧ win2_3.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) ≤ 15 ∧ win2_3.index t (1 : Fin 3) ≤ 3 :=
  (by decide +kernel : ∀ t : Fin grid2.N, _)

/-- Every block of the result array is some point's. -/
theorem block_onto : ∀ (q0 : Fin 16) (q1 : Fin 4), ∃ t : Fin cfg2.N, win2_3.index t = ![q0.val, q1.val, 0] :=
  (by decide +kernel : ∀ (q0 : Fin 16) (q1 : Fin 4), ∃ t : Fin grid2.N, win2_3.index t = ![q0.val, q1.val, 0])

/-- What point `t` writes back is block `t` of the decoder of the three arrays as the region finds them: the input
    block is the same row block of the attention's result, the weight blocks are the whole matrices. -/
theorem flushed_eq (c : Dev nD) (t : Fin cfg2.N) :
    (dat2 (F := Ideal) V c).flushed 3 t
      = ((cfg2.win 3).blk t).view.read (Elt Ideal) (Cert.Spec.dec (V c main_v1) (V c main_arg4) (V c main_arg5)) := by
  show (cfg2.win 3).cut (grid2.coords t) ((dat2 V c).after 3 t) = _
  rw [after2_3]
  unfold out2_3
  rw [View.canon_unit_zero zeros3]
  simp only [View.ld_unit_zero (S := S1x512x1024) zeros3, View.ld_unit_zero (S := S1024x1024) zeros2]
  funext j
  obtain ⟨b, r, e, rfl⟩ : ∃ (b : Fin 1) (r : Fin 512) (e : Fin 1024), j = ix3 b r e := ⟨j 0, j 1, j 2, eq_ix3 j⟩
  obtain rfl : b = 0 := Subsingleton.elim _ _
  obtain ⟨e0, e1, e2, e3, e4, e5, e6, e7, e8, e9⟩ := block_indices t
  have hr : r.val < 512 := r.isLt
  have he : e.val < 1024 := e.isLt
  show k2_pay1 (iblk2 V c 0 t) (iblk2 V c 1 t) (iblk2 V c 2 t) (ix3 (0 : Fin 1) r e)
    = Cert.Spec.dec (V c main_v1) (V c main_arg4) (V c main_arg5) (((cfg2.win 3).blk t).view.emb (ix3 (0 : Fin 1) r e))
  refine (block_value (V c main_v1) (V c main_arg4) (V c main_arg5) _ _ _ r e
    ⟨win2_3.index t (0 : Fin 3), by omega⟩ ⟨win2_3.index t (1 : Fin 3) * 512 + r.val, by omega⟩ ?_ ?_ ?_).trans ?_
  · intro d
    show V c main_v1 (((cfg2.win 0).blk t).view.emb (ix3 (0 : Fin 1) r d)) = _
    refine congrArg (V c main_v1) (funext fun a => Fin.ext ?_)
    match a with
    | ⟨0, _⟩ => show win2_0.index t (0 : Fin 3) * 1 + 1 * (0 : Fin 1).val = win2_3.index t (0 : Fin 3); simp only [Fin.val_zero]; omega
    | ⟨1, _⟩ => show win2_0.index t (1 : Fin 3) * 512 + 1 * r.val = win2_3.index t (1 : Fin 3) * 512 + r.val; omega
    | ⟨2, _⟩ => show win2_0.index t (2 : Fin 3) * 1024 + 1 * d.val = d.val; omega
  · funext y
    show V c main_arg4 (((cfg2.win 1).blk t).view.emb y) = V c main_arg4 y
    refine congrArg (V c main_arg4) (funext fun a => Fin.ext ?_)
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · funext y
    show V c main_arg5 (((cfg2.win 2).blk t).view.emb y) = V c main_arg5 y
    refine congrArg (V c main_arg5) (funext fun a => Fin.ext ?_)
    match a with
    | ⟨0, _⟩ => show win2_2.index t (0 : Fin 2) * 1024 + 1 * (y 0).val = (y 0).val; omega
    | ⟨1, _⟩ => show win2_2.index t (1 : Fin 2) * 1024 + 1 * (y 1).val = (y 1).val; omega
  · refine congrArg (Cert.Spec.dec (V c main_v1) (V c main_arg4) (V c main_arg5)) (funext fun a => Fin.ext ?_)
    match a with
    | ⟨0, _⟩ => show win2_3.index t (0 : Fin 3) = win2_3.index t (0 : Fin 3) * 1 + 1 * (0 : Fin 1).val; simp only [Fin.val_zero]; omega
    | ⟨1, _⟩ => show win2_3.index t (1 : Fin 3) * 512 + r.val = win2_3.index t (1 : Fin 3) * 512 + 1 * r.val; omega
    | ⟨2, _⟩ => show e.val = win2_3.index t (2 : Fin 3) * 1024 + 1 * e.val; omega

/-- An index of the result array is in point `t`'s block iff each coordinate is in the block's range on its axis. -/
theorem mem_block (t : Fin cfg2.N) (i : S16x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v2).slice (win2_3.rect t)).set ↔ _
  rw [View.set_slice_whole, Rect.mem_set_unit]
  exact Iff.rfl

/-- Every index (b, s, e) of the result array lies in the block of the point at batch entry b, row block s / 512,
    and that point writes its block back. -/
theorem cover (i : S16x2048x1024.Idx) :
    ∃ t : Fin cfg2.N, (cfg2.win 3).flush t = true ∧ i ∈ ((cfg2.win 3).blk t).view.set := by
  have hi0 : (i 0).val < 16 := (i 0).isLt
  have hi1 : (i 1).val < 2048 := (i 1).isLt
  have hi2 : (i 2).val < 1024 := (i 2).isLt
  obtain ⟨t, ht⟩ := block_onto ⟨(i 0).val, by omega⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_block]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- After the decoder region's 64 points its result array holds `Spec.dec` of the attention's result and the two
    weight matrices as the region found them. -/
theorem final (c : Dev nD) :
    (dat2 (F := Ideal) V c).arrAt 3 cfg2.N = Cert.Spec.dec (V c main_v1) (V c main_arg4) (V c main_arg5) :=
  (dat2 (F := Ideal) V c).arrAt_eq_of_cover 3 _ (fun t _ => flushed_eq V c t) cover

end Cert.KernelIdeal.DecoderValue

end
-- ==== Proof.ReferenceValue.lean ====
/-
  The reference program's result, at the ideal instance, is the specification's function of its six arguments.
-/
import proofs.«121055_j46617575031493_1_alg».proof.Proof.Gen.ReferenceIdeal.Read
import proofs.«121055_j46617575031493_1_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- An input array of the batch's shape. -/
abbrev TAct : Type := (⟨S16x2048x1024, .f32⟩ : BufTy).Contents (Elt Ideal)
/-- The position table's type. -/
abbrev TPos : Type := (⟨S1x2048x1024, .f32⟩ : BufTy).Contents (Elt Ideal)
/-- A weight matrix's type. -/
abbrev TMat : Type := (⟨S1024x1024, .f32⟩ : BufTy).Contents (Elt Ideal)

/-! ## The index maps of the stages, at coordinates -/

/-- The position table is read at row `s`, feature `d` of its single entry. -/
theorem idx_pos (b : Fin 16) (s : Fin 2048) (d : Fin 1024) :
    idx_main_v0 (ix3 b s d) = ix3 (0 : Fin 1) s d :=
  funext fun a => Fin.ext (by match a with | ⟨0, _⟩ => rfl | ⟨1, _⟩ => rfl | ⟨2, _⟩ => rfl)

/-- A row contraction reads the row (b, s) at feature `k`. -/
theorem lidx_row (b : Fin 16) (s : Fin 2048) (e k : Fin 1024) :
    lidx_main_v2 (ix3 b s e) k = ix3 b s k :=
  funext fun a => Fin.ext (by match a with | ⟨0, _⟩ => rfl | ⟨1, _⟩ => rfl | ⟨2, _⟩ => rfl)

/-- A row contraction reads the matrix at row `e`, column `k`. -/
theorem ridx_row (b : Fin 16) (s : Fin 2048) (e k : Fin 1024) :
    ridx_main_v2 (ix3 b s e) k = ix2 e k :=
  funext fun a => Fin.ext (by match a with | ⟨0, _⟩ => rfl | ⟨1, _⟩ => rfl)

/-- The norm of row (b, s), kept as a column and broadcast along the features, sums the squares at (b, s, k). -/
theorem idx_norm (b : Fin 16) (s : Fin 2048) (e k : Fin 1024) :
    idx_main_call2_v1 (idx_main_call2_v2 (idx_main_v9 (ix3 b s e))) k = ix3 b s k :=
  funext fun a => Fin.ext (by match a with | ⟨0, _⟩ => rfl | ⟨1, _⟩ => rfl | ⟨2, _⟩ => rfl)

/-- The similarity's left factor is row `s` at feature `k`. -/
theorem lidx_sim (b : Fin 16) (s t : Fin 2048) (k : Fin 1024) :
    lidx_main_v11 (ix3 b s t) k = ix3 b s k :=
  funext fun a => Fin.ext (by match a with | ⟨0, _⟩ => rfl | ⟨1, _⟩ => rfl | ⟨2, _⟩ => rfl)

/-- The similarity's right factor is row `t` at feature `k`. -/
theorem ridx_sim (b : Fin 16) (s t : Fin 2048) (k : Fin 1024) :
    ridx_main_v11 (ix3 b s t) k = ix3 b t k :=
  funext fun a => Fin.ext (by match a with | ⟨0, _⟩ => rfl | ⟨1, _⟩ => rfl | ⟨2, _⟩ => rfl)

/-- The weighted sum's left factor is the similarity of rows `s` and `t`. -/
theorem lidx_mix (b : Fin 16) (s : Fin 2048) (d : Fin 1024) (t : Fin 2048) :
    lidx_main_v12 (ix3 b s d) t = ix3 b s t :=
  funext fun a => Fin.ext (by match a with | ⟨0, _⟩ => rfl | ⟨1, _⟩ => rfl | ⟨2, _⟩ => rfl)

/-- The weighted sum's right factor is row `t` at feature `d`. -/
theorem ridx_mix (b : Fin 16) (s : Fin 2048) (d : Fin 1024) (t : Fin 2048) :
    ridx_main_v12 (ix3 b s d) t = ix3 b t d :=
  funext fun a => Fin.ext (by match a with | ⟨0, _⟩ => rfl | ⟨1, _⟩ => rfl | ⟨2, _⟩ => rfl)

/-! ## The encoder -/

/-- The first stage adds the position table's row to the input's row. -/
theorem v1_at (x0 : TAct) (x1 : TPos) (b : Fin 16) (s : Fin 2048) (d : Fin 1024) :
    val_main_v1 (F := Ideal) x0 x1 (ix3 b s d) = Cert.Spec.encIn x0 x1 b s d := by
  rw [val_main_v1_apply, val_main_v0_apply, idx_pos]
  rfl

/-- The encoder's first layer. -/
theorem v3_at (x0 : TAct) (x1 : TPos) (x2 : TMat) (b : Fin 16) (s : Fin 2048) (k : Fin 1024) :
    val_main_v3 (F := Ideal) x0 x1 x2 (ix3 b s k) = Cert.Spec.layer (Cert.Spec.encIn x0 x1 b s) x2 k := by
  rw [val_main_v3_apply, val_main_v2_apply, val_main_call0_v0_apply, val_main_call0_cst_apply]
  simp only [Ideal.maximumf_def, Ideal.ofBits_def, Ideal.ofBits_zero_f32]
  unfold Cert.Spec.layer
  refine congrArg (max · 0) (Finset.sum_congr rfl fun d _ => ?_)
  rw [lidx_row, ridx_row, v1_at]

/-- The encoder's second layer: the perceptron's feature. -/
theorem v5_at (x0 : TAct) (x1 : TPos) (x2 x3 : TMat) (b : Fin 16) (s : Fin 2048) (e : Fin 1024) :
    val_main_v5 (F := Ideal) x0 x1 x2 x3 (ix3 b s e) = Cert.Spec.encHidden x0 x1 x2 x3 b s e := by
  rw [val_main_v5_apply, val_main_v4_apply, val_main_call1_v0_apply, val_main_call1_cst_apply]
  simp only [Ideal.maximumf_def, Ideal.ofBits_def, Ideal.ofBits_zero_f32]
  unfold Cert.Spec.encHidden Cert.Spec.mlp
  show _ = Cert.Spec.layer _ x3 e
  unfold Cert.Spec.layer
  refine congrArg (max · 0) (Finset.sum_congr rfl fun d _ => ?_)
  rw [show lidx_main_v4 (ix3 b s e) d = ix3 b s d from lidx_row b s e d,
    show ridx_main_v4 (ix3 b s e) d = ix2 e d from ridx_row b s e d, v3_at]
  rfl

/-- The encoder's result at (b, s, e): the feature over the row's norm plus the constant. -/
theorem v10_at (x0 : TAct) (x1 : TPos) (x2 x3 : TMat) (b : Fin 16) (s : Fin 2048) (e : Fin 1024) :
    val_main_v10 (F := Ideal) x0 x1 x2 x3 (ix3 b s e) = Cert.Spec.encAt x0 x1 x2 x3 b s e := by
  rw [val_main_v10_apply, val_main_v9_apply, val_main_v8_apply, val_main_v6_apply, val_main_call2_v2_apply,
    val_main_call2_v1_apply, val_main_v7_apply, val_main_cst_apply, val_main_call2_cst_apply, v5_at]
  simp only [Ideal.hostDivf_def, Ideal.addf_def, Ideal.hostUnary_sqrt_def, Ideal.ofBits_def, Ideal.ofBits_zero_f32,
    zero_add]
  unfold Cert.Spec.encAt
  refine congrArg (fun t => Ideal.div _ (Ideal.sqrt t + _)) (Finset.sum_congr rfl fun k _ => ?_)
  rw [val_main_call2_v0_apply, idx_norm, v5_at]
  rfl

/-- The encoder's result array is the specification's. -/
theorem v10_eq (x0 : TAct) (x1 : TPos) (x2 x3 : TMat) :
    val_main_v10 (F := Ideal) x0 x1 x2 x3 = Cert.Spec.enc x0 x1 x2 x3 := by
  funext i
  obtain ⟨b, s, e, rfl⟩ : ∃ (b : Fin 16) (s : Fin 2048) (e : Fin 1024), i = ix3 b s e := ⟨i 0, i 1, i 2, eq_ix3 i⟩
  rw [v10_at]
  rfl

/-! ## The attention stage -/

/-- The similarity of rows `s` and `t` of batch entry `b`. -/
theorem v11_at (x0 : TAct) (x1 : TPos) (x2 x3 : TMat) (b : Fin 16) (s t : Fin 2048) :
    val_main_v11 (F := Ideal) x0 x1 x2 x3 (ix3 b s t) = Cert.Spec.sim (Cert.Spec.enc x0 x1 x2 x3) b s t := by
  rw [val_main_v11_apply, v10_eq]
  unfold Cert.Spec.sim
  refine Finset.sum_congr rfl fun k _ => ?_
  rw [lidx_sim, ridx_sim]

/-- The attention stage at (b, s, d). -/
theorem v12_at (x0 : TAct) (x1 : TPos) (x2 x3 : TMat) (b : Fin 16) (s : Fin 2048) (d : Fin 1024) :
    val_main_v12 (F := Ideal) x0 x1 x2 x3 (ix3 b s d) = Cert.Spec.attnAt (Cert.Spec.enc x0 x1 x2 x3) b s d := by
  rw [val_main_v12_apply]
  unfold Cert.Spec.attnAt
  refine Finset.sum_congr rfl fun t _ => ?_
  rw [lidx_mix, ridx_mix, v11_at, v10_eq]

/-- The attention stage's result array is the specification's. -/
theorem v12_eq (x0 : TAct) (x1 : TPos) (x2 x3 : TMat) :
    val_main_v12 (F := Ideal) x0 x1 x2 x3 = Cert.Spec.attn (Cert.Spec.enc x0 x1 x2 x3) := by
  funext i
  obtain ⟨b, s, d, rfl⟩ : ∃ (b : Fin 16) (s : Fin 2048) (d : Fin 1024), i = ix3 b s d := ⟨i 0, i 1, i 2, eq_ix3 i⟩
  rw [v12_at]
  rfl

/-! ## The decoder -/

/-- The decoder's first layer. -/
theorem v14_at (x0 : TAct) (x1 : TPos) (x2 x3 x4 : TMat) (b : Fin 16) (s : Fin 2048) (k : Fin 1024) :
    val_main_v14 (F := Ideal) x0 x1 x2 x3 x4 (ix3 b s k)
      = Cert.Spec.layer (fun d => Cert.Spec.attn (Cert.Spec.enc x0 x1 x2 x3) (ix3 b s d)) x4 k := by
  rw [val_main_v14_apply, val_main_v13_apply, val_main_call3_v0_apply, val_main_call3_cst_apply, v12_eq]
  simp only [Ideal.maximumf_def, Ideal.ofBits_def, Ideal.ofBits_zero_f32]
  unfold Cert.Spec.layer
  refine congrArg (max · 0) (Finset.sum_congr rfl fun d _ => ?_)
  rw [show lidx_main_v13 (ix3 b s k) d = ix3 b s d from lidx_row b s k d,
    show ridx_main_v13 (ix3 b s k) d = ix2 k d from ridx_row b s k d]

/-- The decoder's second layer: the whole program at (b, s, e). -/
theorem v16_at (x0 : TAct) (x1 : TPos) (x2 x3 x4 x5 : TMat) (b : Fin 16) (s : Fin 2048) (e : Fin 1024) :
    val_main_v16 (F := Ideal) x0 x1 x2 x3 x4 x5 (ix3 b s e)
      = Cert.Spec.decAt (Cert.Spec.attn (Cert.Spec.enc x0 x1 x2 x3)) x4 x5 b s e := by
  rw [val_main_v16_apply, val_main_v15_apply, val_main_call4_v0_apply, val_main_call4_cst_apply]
  simp only [Ideal.maximumf_def, Ideal.ofBits_def, Ideal.ofBits_zero_f32]
  unfold Cert.Spec.decAt Cert.Spec.mlp
  show _ = Cert.Spec.layer _ x5 e
  unfold Cert.Spec.layer
  refine congrArg (max · 0) (Finset.sum_congr rfl fun d _ => ?_)
  rw [show lidx_main_v15 (ix3 b s e) d = ix3 b s d from lidx_row b s e d,
    show ridx_main_v15 (ix3 b s e) d = ix2 e d from ridx_row b s e d, v14_at]
  rfl

/-- The reference's last stage is encoder, attention, decoder of its arguments. -/
theorem result_eq (x0 : (⟨S16x2048x1024, .f32⟩ : BufTy).Contents (Elt Ideal)) (x1 : (⟨S1x2048x1024, .f32⟩ : BufTy).Contents (Elt Ideal))
    (x2 x3 x4 x5 : (⟨S1024x1024, .f32⟩ : BufTy).Contents (Elt Ideal)) :
    val_main_v16 (F := Ideal) x0 x1 x2 x3 x4 x5 = Cert.Spec.whole x0 x1 x2 x3 x4 x5 := by
  funext i
  obtain ⟨b, s, e, rfl⟩ : ∃ (b : Fin 16) (s : Fin 2048) (e : Fin 1024), i = ix3 b s e := ⟨i 0, i 1, i 2, eq_ix3 i⟩
  rw [v16_at]
  rfl

end Cert.ReferenceIdeal.RefValue

end
-- ==== Proof.lean ====
/-
  A transformer block in three kernel calls against its plain reference, over the extended reals.

  The program adds a position table to a batch of sequences, applies a two-layer perceptron without bias to every
  row (each layer a product with a transposed weight matrix clipped at zero), divides each row by its Euclidean norm
  plus a small constant, replaces row s of a batch entry by the sum over rows t of (y_s · y_t) y_t, and applies a
  second perceptron. The kernel does this in three calls, each on a grid of 16 batch entries by 4 blocks of 512
  rows; its matrix products take operands narrowed to a 16-bit format, which at the ideal instance is the identity,
  and a product into a zero accumulator is the same finite sum of products as the reference's contraction. So at
  the ideal instance both programs compute, entry by entry, the same sums of the same products, the same maxima
  with zero, the same square root and quotient with the same constant's word: no law of arithmetic joins the two
  sides, only that a block of the result is the function's restriction to the block's rows. The frames come from
  the programs' runs: the kernel's as three regions entered one after the other (the attention call reads one
  array through two windows, holding it at two half shares), the reference's as its host operations in order.
  The idealization rewrote no operation, so that it preserves the kernel is immediate.
-/
import proofs.«121055_j46617575031493_1_alg».proof.Defs
import proofs.«121055_j46617575031493_1_alg».proof.Proof.Gen.Kernel
import proofs.«121055_j46617575031493_1_alg».proof.Proof.Gen.KernelIdeal
import proofs.«121055_j46617575031493_1_alg».proof.Proof.Gen.ReferenceIdeal
import proofs.«121055_j46617575031493_1_alg».proof.Proof.Gen.Pre_finite_inputs
import proofs.«121055_j46617575031493_1_alg».proof.Proof.Gen.ReferenceIdeal.Run
import proofs.«121055_j46617575031493_1_alg».proof.Proof.Gen.ReferenceIdeal.Read
import proofs.«121055_j46617575031493_1_alg».proof.Proof.KernelRun
import proofs.«121055_j46617575031493_1_alg».proof.Proof.KernelIdealRun
import proofs.«121055_j46617575031493_1_alg».proof.Proof.EncoderValue
import proofs.«121055_j46617575031493_1_alg».proof.Proof.AttentionValue
import proofs.«121055_j46617575031493_1_alg».proof.Proof.DecoderValue
import proofs.«121055_j46617575031493_1_alg».proof.Proof.ReferenceValue
import Idealize.ShloMosaic.Adequacy
import Idealize.ShloMosaic.Init

noncomputable section

namespace Cert.Proof

open Idealize.ShloMosaic Idealize.ShloMosaic.TcCoe Idealize.SL.Sem

/-! ## The kernel's result is the specification's function of the arguments -/

section KernelValue

open Cert.KernelIdeal Cert.KernelIdeal.Gen Cert.KernelIdeal.Frame

/-- The result array the run leaves: the decoder of the attention of the encoder of the arguments, each region's
    result read off the contents the region before it left. -/
theorem kernel_result (m : (ℓ : Loc nD τ sig) → Buf (Elt Ideal) ℓ) (c : Dev nD) :
    (dat2 (F := Ideal) (V2 m) c).arrAt 3 cfg2.N
      = Cert.Spec.whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [Cert.KernelIdeal.DecoderValue.final (V2 m) c]
  unfold Cert.Spec.whole
  rw [V2_main_v1 m c, Cert.KernelIdeal.AttentionValue.final (V1 m) c, V1_main_v0 m c,
    Cert.KernelIdeal.EncoderValue.final (V0 m) c, V2_main_arg4 m c, V2_main_arg5 m c]

end KernelValue

/-! ## The claims -/

/-- The word-level kernel runs and leaves its arguments unchanged: its run with the result dropped. -/
theorem frame_kernel : Cert.frame_Kernel := fun m ρ _ =>
  (θ_run Cert.Kernel.defs _ _).mono (fun _ h c => (h c).2) (Cert.Kernel.Frame.run (F := Bits) m ρ)

/-- The idealized kernel likewise. -/
theorem frame_kernelIdeal : Cert.frame_KernelIdeal := fun m ρ _ =>
  (θ_run Cert.KernelIdeal.defs _ _).mono (fun _ h c => (h c).2) (Cert.KernelIdeal.Frame.run (F := Ideal) m ρ)

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the specification's function of them. -/
theorem algebraic : Cert.algebraic_KernelIdeal_ReferenceIdeal := by
  intro m ρ m' ρ' _ hagree
  refine ⟨fun c => Cert.Spec.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_result m c), (h c).2⟩)
      (Cert.KernelIdeal.Frame.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
